-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x64 : Shape := ⟨2, ![1200000, 64]⟩
abbrev S128x128 : Shape := ⟨2, ![128, 128]⟩
abbrev S128 : Shape := ⟨1, ![128]⟩
abbrev S64 : Shape := ⟨1, ![64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S1200000x64 .f32) (main_arg2 : FVec F S128x128 .f32) (main_arg3 : FVec F S128 .f32) (main_arg4 : FVec F S128 .f32) (main_arg5 : FVec F S128 .f32) (main_arg6 : FVec F S64 .f32) (main_arg7 : FVec F S64 .f32) (main_arg8 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg1
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x64 : Shape := ⟨2, ![100000, 64]⟩
abbrev S1200000x64 : Shape := ⟨2, ![1200000, 64]⟩
abbrev S128x128 : Shape := ⟨2, ![128, 128]⟩
abbrev S128 : Shape := ⟨1, ![128]⟩
abbrev S64 : Shape := ⟨1, ![64]⟩
abbrev S1200000 : Shape := ⟨1, ![1200000]⟩
abbrev S_ : Shape := ⟨0, ![]⟩
abbrev S1200000x1 : Shape := ⟨2, ![1200000, 1]⟩
abbrev S64x128 : Shape := ⟨2, ![64, 128]⟩
abbrev S1x128 : Shape := ⟨2, ![1, 128]⟩
abbrev S12000x64 : Shape := ⟨2, ![12000, 64]⟩
abbrev S12000x128 : Shape := ⟨2, ![12000, 128]⟩
abbrev S12000 : Shape := ⟨1, ![12000]⟩
abbrev S12000x1 : Shape := ⟨2, ![12000, 1]⟩
abbrev S1x64 : Shape := ⟨2, ![1, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 32
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64, .f32⟩
  | .hbm, ⟨7, _⟩ => ⟨S64, .f32⟩
  | .hbm, ⟨8, _⟩ => ⟨S1200000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S128x128, .f32⟩
  | .hbm, ⟨19, _⟩ => ⟨S64x128, .f32⟩
  | .hbm, ⟨20, _⟩ => ⟨S64x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S1x64, .f32⟩
  | .hbm, ⟨30, _⟩ => ⟨S1x64, .f32⟩
  | .hbm, ⟨31, _⟩ => ⟨S100000x64, .f32⟩
  | .local _ .vmem, ⟨0, _⟩ => ⟨S12000x64, .f32⟩
  | .local _ .vmem, ⟨1, _⟩ => ⟨S12000x64, .f32⟩
  | .local _ .vmem, ⟨2, _⟩ => ⟨S12000x64, .f32⟩
  | .local _ .vmem, ⟨3, _⟩ => ⟨S12000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S12000x64, .f32⟩
  | .local _ .vmem, ⟨10, _⟩ => ⟨S12000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S12000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  transposes_S128x128_S128x128_1_0 : S128x128.Transposes [1, 0] S128x128
  slices_S128x128_S64x128_0_0 : S128x128.Slices ![0, 0] S64x128
  slices_S128x128_S64x128_64_0 : S128x128.Slices ![64, 0] S64x128
  shapeCasts_S128_S1x128 : S128.ShapeCasts S1x128
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12000x128 : S1x128.Broadcasts S12000x128
  reduces_S12000x128_S12000 : S12000x128.Reduces [1] S12000
  shapeCasts_S12000_S12000x1 : S12000.ShapeCasts S12000x1
  broadcasts_S12000x1_S12000x128 : S12000x1.Broadcasts S12000x128
  slices_S12000x128_o0_0_S12000x64 : S12000x128.Slices ![0, 0] S12000x64
  slices_S12000x128_o0_64_S12000x64 : S12000x128.Slices ![0, 64] S12000x64
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1200000x1_S1200000x64_1_0_n_n_0_1_164_wf : GatherDims.WF S100000x64 S1200000x1 S1200000x64 [1] [0] [] [0] [] 1 ![1, 64]
  dot_S12000x64_S64x128_S12000x128_1_0_0_1_n_n_wf : DotDims.WF S12000x64 S64x128 S12000x128 [1] [0] [0] [1] [] []
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x64.size a ≤ S1200000x64.size a
  hwx0_0 : ∀ i : grid0.Coords, EltTy.bits .f32 = 32 ∨ (Rect.block (s := S1200000x64) S12000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x64.size a ≤ S1200000x64.size a
  hwx0_1 : ∀ i : grid0.Coords, EltTy.bits .f32 = 32 ∨ (Rect.block (s := S1200000x64) S12000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S12000x64.size a ≤ S1200000x64.size a
  hwx0_7 : ∀ i : grid0.Coords, EltTy.bits .f32 = 32 ∨ (Rect.block (s := S1200000x64) S12000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S12000x64_S64x128_S12000x128_1_0_0_1_n_n : DotDims S12000x64 S64x128 S12000x128 where
  lhsContracting := [1]
  rhsContracting := [0]
  lhsNonContracting := [0]
  rhsNonContracting := [1]
  lhsBatch := []
  rhsBatch := []
  wf := dot_S12000x64_S64x128_S12000x128_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_v6) S12000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S12000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000x64 : Shape := ⟨2, ![1200000, 64]⟩
abbrev S128x128 : Shape := ⟨2, ![128, 128]⟩
abbrev S128 : Shape := ⟨1, ![128]⟩
abbrev S64 : Shape := ⟨1, ![64]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S1x128 : Shape := ⟨2, ![1, 128]⟩
abbrev S100000 : Shape := ⟨1, ![100000]⟩
abbrev S100000x1 : Shape := ⟨2, ![100000, 1]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64, .f32⟩
  | .hbm, ⟨7, _⟩ => ⟨S64, .f32⟩
  | .hbm, ⟨8, _⟩ => ⟨S1200000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S1200000x128, .f32⟩
  | .hbm, ⟨19, _⟩ => ⟨S128x128, .f32⟩
  | .hbm, ⟨20, _⟩ => ⟨S1200000x128, .f32⟩
  | .hbm, ⟨21, _⟩ => ⟨S1x128, .f32⟩
  | .hbm, ⟨22, _⟩ => ⟨S1200000x128, .f32⟩
  | .hbm, ⟨23, _⟩ => ⟨S1200000x128, .f32⟩
  | .hbm, ⟨24, _⟩ => ⟨S_, .f32⟩
  | .hbm, ⟨25, _⟩ => ⟨S1200000, .f32⟩
  | .hbm, ⟨26, _⟩ => ⟨S1200000x1, .f32⟩
  | .hbm, ⟨27, _⟩ => ⟨S_, .f32⟩
  | .hbm, ⟨28, _⟩ => ⟨S1200000x1, .f32⟩
  | .hbm, ⟨29, _⟩ => ⟨S1200000x1, .f32⟩
  | .hbm, ⟨30, _⟩ => ⟨S1200000x128, .f32⟩
  | .hbm, ⟨31, _⟩ => ⟨S1200000x128, .f32⟩
  | .hbm, ⟨32, _⟩ => ⟨S1200000x128, .f32⟩
  | .hbm, ⟨33, _⟩ => ⟨S_, .f32⟩
  | .hbm, ⟨34, _⟩ => ⟨S1200000, .f32⟩
  | .hbm, ⟨35, _⟩ => ⟨S1200000x1, .f32⟩
  | .hbm, ⟨36, _⟩ => ⟨S_, .f32⟩
  | .hbm, ⟨37, _⟩ => ⟨S1200000x1, .f32⟩
  | .hbm, ⟨38, _⟩ => ⟨S1200000x1, .f32⟩
  | .hbm, ⟨39, _⟩ => ⟨S1200000x128, .f32⟩
  | .hbm, ⟨40, _⟩ => ⟨S1200000x128, .f32⟩
  | .hbm, ⟨41, _⟩ => ⟨S_, .f32⟩
  | .hbm, ⟨42, _⟩ => ⟨S1200000x1, .f32⟩
  | .hbm, ⟨43, _⟩ => ⟨S1200000x1, .f32⟩
  | .hbm, ⟨44, _⟩ => ⟨S1200000x1, .f32⟩
  | .hbm, ⟨45, _⟩ => ⟨S1200000x128, .f32⟩
  | .hbm, ⟨46, _⟩ => ⟨S1200000x128, .f32⟩
  | .hbm, ⟨47, _⟩ => ⟨S1x128, .f32⟩
  | .hbm, ⟨48, _⟩ => ⟨S1200000x128, .f32⟩
  | .hbm, ⟨49, _⟩ => ⟨S1200000x128, .f32⟩
  | .hbm, ⟨50, _⟩ => ⟨S1x128, .f32⟩
  | .hbm, ⟨51, _⟩ => ⟨S1200000x128, .f32⟩
  | .hbm, ⟨52, _⟩ => ⟨S1200000x128, .f32⟩
  | .hbm, ⟨53, _⟩ => ⟨S1200000x64, .f32⟩
  | .hbm, ⟨54, _⟩ => ⟨S1200000x64, .f32⟩
  | .hbm, ⟨55, _⟩ => ⟨S1200000x64, .f32⟩
  | .hbm, ⟨56, _⟩ => ⟨S1200000x64, .f32⟩
  | .hbm, ⟨57, _⟩ => ⟨S_, .f32⟩
  | .hbm, ⟨58, _⟩ => ⟨S1200000x64, .f32⟩
  | .hbm, ⟨59, _⟩ => ⟨S1200000x64, .f32⟩
  | .hbm, ⟨60, _⟩ => ⟨S_, .f32⟩
  | .hbm, ⟨61, _⟩ => ⟨S1200000x64, .f32⟩
  | .hbm, ⟨62, _⟩ => ⟨S1200000x64, .f32⟩
  | .hbm, ⟨63, _⟩ => ⟨S1200000x64, .f32⟩
  | .hbm, ⟨64, _⟩ => ⟨S1200000x64, .f32⟩
  | .hbm, ⟨65, _⟩ => ⟨S_, .f32⟩
  | .hbm, ⟨66, _⟩ => ⟨S100000x64, .f32⟩
  | .hbm, ⟨67, _⟩ => ⟨S1200000x1, .i32⟩
  | .hbm, ⟨68, _⟩ => ⟨S100000x64, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  transposes_S128x128_S128x128_1_0 : S128x128.Transposes [1, 0] S128x128
  bcast_S128_S1x128_1 : S128.BroadcastsInDim S1x128 (![1] : Fin 1 → Fin S1x128.rank)
  bcast_S1x128_S1200000x128_0_1 : S1x128.BroadcastsInDim S1200000x128 (![0, 1] : Fin 2 → Fin S1200000x128.rank)
  reducesTo_S1200000x128_S1200000_d1 : S1200000x128.ReducesTo [1] S1200000
  h_S_ : 0 < S_.numel
  bcast_S_S1200000x1 : S_.BroadcastsInDim S1200000x1 (![] : Fin 0 → Fin S1200000x1.rank)
  bcast_S1200000x1_S1200000x128_0_1 : S1200000x1.BroadcastsInDim S1200000x128 (![0, 1] : Fin 2 → Fin S1200000x128.rank)
  slices_S1200000x128_S1200000x64_0_0 : S1200000x128.Slices ![0, 0] S1200000x64
  slices_S1200000x128_S1200000x64_0_64 : S1200000x128.Slices ![0, 64] S1200000x64
  bcast_S_S1200000x64 : S_.BroadcastsInDim S1200000x64 (![] : Fin 0 → Fin S1200000x64.rank)
  bcast_S_S100000x64 : S_.BroadcastsInDim S100000x64 (![] : Fin 0 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  dot_S1200000x128_S128x128_S1200000x128_1_0_0_1_n_n_wf : DotDims.WF S1200000x128 S128x128 S1200000x128 [1] [0] [0] [1] [] []
  scatter_S100000x64_S1200000x1_S1200000x64_1_0_0_1_wf : ScatterDims.WF S100000x64 S1200000x1 S1200000x64 [1] [0] [0] 1

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x128_S128x128_S1200000x128_1_0_0_1_n_n : DotDims S1200000x128 S128x128 S1200000x128 where
  lhsContracting := [1]
  rhsContracting := [0]
  lhsNonContracting := [0]
  rhsNonContracting := [1]
  lhsBatch := []
  rhsBatch := []
  wf := dot_S1200000x128_S128x128_S1200000x128_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.Spec.lean ====
/-
  The mathematics both programs compute, stated once over the extended reals, row by row.

  An edge row r has a pre-activation row of 128 lanes: the gathered node row against the first 64 rows of Wᵀ, plus the edge
  row against the last 64 rows of Wᵀ, plus the bias. That row is layer-normalised (mean and variance over its 128 lanes,
  the variance offset added before the reciprocal square root, then scale and shift), and lane j of the message is
  sigmoid(lane j) · tanh(lane 64 + j). A node row is the layer-normalised row of the aggregated messages added to the
  node's own row, under tanh.
-/
import Idealize.ShloMosaic.PureOps.Ideal
import Idealize.ShloMosaic.Lib.ValueIdx

noncomputable section

namespace Cert.Spec

open Idealize.ShloMosaic Idealize.ShloMosaic.ValueIdx

/-- The row lengths 128 and 64 and the variance offset, each as the one word both programs carry. -/
abbrev w128 : EReal := Ideal.ofBits .f32 0x43000000#32
abbrev w64 : EReal := Ideal.ofBits .f32 0x42800000#32
abbrev wEps : EReal := Ideal.ofBits .f32 0x3727C5AC#32

/-- A row's mean: its sum divided by the row length. -/
def rowMean {n : ℕ} (cn : EReal) (y : Fin n → EReal) : EReal := Ideal.div (∑ a, y a) cn

/-- A row's variance: the mean of the squared deviations from the row's mean. -/
def rowVar {n : ℕ} (cn : EReal) (y : Fin n → EReal) : EReal :=
  Ideal.div (∑ a, (y a - rowMean cn y) * (y a - rowMean cn y)) cn

/-- Layer normalisation of one row, at lane k: the deviation from the mean, times the reciprocal square root of the
    variance plus the offset, times the scale, plus the shift. -/
def lnRow {n : ℕ} (cn : EReal) (y g be : Fin n → EReal) (k : Fin n) : EReal :=
  (y k - rowMean cn y) * Ideal.rsqrt (rowVar cn y + wEps) * g k + be k

/-- Lane j of a message row: the sigmoid of lane j of the normalised row times the tanh of its lane 64 + j. -/
def msgRow (y g1 be1 : Fin 128 → EReal) (j : Fin 64) : EReal :=
  Ideal.logistic (lnRow w128 y g1 be1 ⟨j.val, by omega⟩) * Ideal.tanh (lnRow w128 y g1 be1 ⟨64 + j.val, by omega⟩)

/-- Lane j of a node's result: tanh of the node's own entry plus the normalised aggregate row at that lane. -/
def nodeRow (x : EReal) (a g2 be2 : Fin 64 → EReal) (j : Fin 64) : EReal :=
  Ideal.tanh (x + lnRow w64 a g2 be2 j)

/-- The pre-activation row as the kernel forms it: two products over 64 terms each, then the bias. -/
def linRow (gr er : Fin 64 → EReal) (wn we : Fin 64 → Fin 128 → EReal) (b : Fin 128 → EReal) (k : Fin 128) : EReal :=
  (∑ a, gr a * wn a k) + (∑ a, er a * we a k) + b k

abbrev SE64 : Shape := ⟨2, ![1200000, 64]⟩
abbrev SN64 : Shape := ⟨2, ![100000, 64]⟩
abbrev SW : Shape := ⟨2, ![64, 128]⟩
abbrev SR128 : Shape := ⟨2, ![1, 128]⟩
abbrev SR64 : Shape := ⟨2, ![1, 64]⟩

/-- The message array [1200000, 64] as one function of the seven arrays the message region reads: gathered node rows,
    edge rows, the two halves of Wᵀ, and bias, scale and shift as [1, 128] rows. -/
def MsgG (g e : SE64.Idx → EReal) (wn we : SW.Idx → EReal) (b g1 be1 : SR128.Idx → EReal) : SE64.Idx → EReal :=
  fun i => msgRow
    (linRow (fun a => g (ix2 (i 0 : Fin 1200000) a)) (fun a => e (ix2 (i 0 : Fin 1200000) a))
      (fun a k => wn (ix2 a k)) (fun a k => we (ix2 a k)) (fun k => b (ix2 (0 : Fin 1) k)))
    (fun k => g1 (ix2 (0 : Fin 1) k)) (fun k => be1 (ix2 (0 : Fin 1) k)) (i 1 : Fin 64)

/-- The result array [100000, 64] as one function of the four arrays the node region reads: the node rows, the
    aggregated messages, and scale and shift as [1, 64] rows. -/
def NodeG (x agg : SN64.Idx → EReal) (g2 be2 : SR64.Idx → EReal) : SN64.Idx → EReal :=
  fun i => nodeRow (x i) (fun a => agg (ix2 (i 0 : Fin 100000) a))
    (fun a => g2 (ix2 (0 : Fin 1) a)) (fun a => be2 (ix2 (0 : Fin 1) a)) (i 1 : Fin 64)

abbrev SWW : Shape := ⟨2, ![128, 128]⟩
abbrev SV128 : Shape := ⟨1, ![128]⟩
abbrev SV64 : Shape := ⟨1, ![64]⟩

/-- Lane a of the joined row of edge r: the gathered node row on lanes 0 to 63, the edge row on lanes 64 to 127. -/
def catRow (gr er : Fin 64 → EReal) (a : Fin 128) : EReal :=
  if h : a.val < 64 then gr ⟨a.val, h⟩ else er ⟨a.val - 64, by omega⟩

/-- The pre-activation row as the reference forms it: ONE product over the 128 joined lanes against W read
    transposed, then the bias. -/
def linRowJoined (gr er : Fin 64 → EReal) (w : Fin 128 → Fin 128 → EReal) (b : Fin 128 → EReal) (k : Fin 128) : EReal :=
  (∑ a, catRow gr er a * w k a) + b k

/-- The message array [1200000, 64] as the reference computes it: from the gathered node rows, the edge rows, the
    weight matrix W [128, 128] (row k of W gives lane k), and bias, scale and shift as vectors of 128. -/
def MsgR (g e : SE64.Idx → EReal) (w : SWW.Idx → EReal) (b g1 be1 : SV128.Idx → EReal) : SE64.Idx → EReal :=
  fun i => msgRow
    (linRowJoined (fun a => g (ix2 (i 0 : Fin 1200000) a)) (fun a => e (ix2 (i 0 : Fin 1200000) a))
      (fun k a => w (ix2 k a)) (fun k => b (ix1 k)))
    (fun k => g1 (ix1 k)) (fun k => be1 (ix1 k)) (i 1 : Fin 64)

/-- The result array [100000, 64] as the reference computes it: scale and shift as vectors of 64. -/
def NodeR (x agg : SN64.Idx → EReal) (g2 be2 : SV64.Idx → EReal) : SN64.Idx → EReal :=
  fun i => nodeRow (x i) (fun a => agg (ix2 (i 0 : Fin 100000) a)) (fun a => g2 (ix1 a)) (fun a => be2 (ix1 a)) (i 1 : Fin 64)

end Cert.Spec

end
-- ==== Proof.KernelHost.lean ====
/-
  The kernel program's result as ONE term of the launch memory.

  Between the launch and the return the program's buffers pass four boundaries: after the first host stretch (the
  gather of node rows at the wrapped indices, Wᵀ cut into its top and bottom 64 rows, the three vectors of 128 recast as
  rows), after the message region (its output array written), after the second host stretch (the scatter-add of the
  message rows into a zero array at the raw indices, the two vectors of 64 recast as rows) and after the node region.
  Reading the result buffer back through those boundaries, with what each region leaves in its output array given as a
  function of the arrays it finds (the two hypotheses below), names the result:
      NodeG node (scatter-add (MsgG (gather node idx) edge WᵀTop WᵀBottom b γ₁ β₁)) γ₂ β₂.
-/
import proofs.«128651_j36069135352226_1_alg».proof.Proof.Gen.KernelIdeal.Frame
import proofs.«128651_j36069135352226_1_alg».proof.Proof.Spec
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

/-! ## The host stretches' functions, named -/

/-- The gather's index column: an index below zero is moved up by the number of nodes, then the vector is laid out
    as a column. -/
abbrev wrapCol (i : (⟨S1200000, .i32⟩ : BufTy).Contents (Elt Ideal)) : (⟨S1200000x1, .i32⟩ : BufTy).Contents (Elt Ideal) :=
  broadcastInDim S1200000x1 ![0] bcast_S1200000_S1200000x1_0
    (select (cmpi CmpIPredicate.slt i (broadcastInDim S1200000 ![] bcast_S_S1200000 (constantI S_ 32 0#32)))
      (addi i (broadcastInDim S1200000 ![] bcast_S_S1200000 (constantI S_ 32 100000#32))) i)

/-- The node rows gathered at the wrapped indices. -/
abbrev gathered (x : (⟨S100000x64, .f32⟩ : BufTy).Contents (Elt Ideal)) (i : (⟨S1200000, .i32⟩ : BufTy).Contents (Elt Ideal)) :
    (⟨S1200000x64, .f32⟩ : BufTy).Contents (Elt Ideal) :=
  Host.gather gather_S100000x64_S1200000x1_S1200000x64_1_0_n_n_0_1_164 x (wrapCol i)

/-- Rows 0 to 63 of Wᵀ. -/
abbrev wtTop (w : (⟨S128x128, .f32⟩ : BufTy).Contents (Elt Ideal)) : (⟨S64x128, .f32⟩ : BufTy).Contents (Elt Ideal) :=
  extractStridedSlice S64x128 ![0, 0] (transpose S128x128 [1, 0] w transposes_S128x128_S128x128_1_0) slices_S128x128_S64x128_0_0

/-- Rows 64 to 127 of Wᵀ. -/
abbrev wtBottom (w : (⟨S128x128, .f32⟩ : BufTy).Contents (Elt Ideal)) : (⟨S64x128, .f32⟩ : BufTy).Contents (Elt Ideal) :=
  extractStridedSlice S64x128 ![64, 0] (transpose S128x128 [1, 0] w transposes_S128x128_S128x128_1_0) slices_S128x128_S64x128_64_0

/-- A vector of 128 as a [1, 128] row. -/
abbrev row128 (v : (⟨S128, .f32⟩ : BufTy).Contents (Elt Ideal)) : (⟨S1x128, .f32⟩ : BufTy).Contents (Elt Ideal) :=
  shapeCast S1x128 v shapeCasts_S128_S1x128

/-- A vector of 64 as a [1, 64] row. -/
abbrev row64 (v : (⟨S64, .f32⟩ : BufTy).Contents (Elt Ideal)) : (⟨S1x64, .f32⟩ : BufTy).Contents (Elt Ideal) :=
  shapeCast S1x64 v shapeCasts_S64_S1x64

/-- The message rows added into a zero [100000, 64] array, row r into the row its raw index names. -/
abbrev aggregated (i : (⟨S1200000, .i32⟩ : BufTy).Contents (Elt Ideal)) (u : (⟨S1200000x64, .f32⟩ : BufTy).Contents (Elt Ideal)) :
    (⟨S100000x64, .f32⟩ : BufTy).Contents (Elt Ideal) :=
  Host.scatterAdd (F := Ideal) scatter_S100000x64_S1200000x1_S1200000x64_1_0_0_1
    (broadcastInDim S100000x64 ![] bcast_S_S100000x64 (constant (F := Ideal) S_ FTy.f32 0x00000000#32))
    (broadcastInDim S1200000x1 ![0] bcast_S1200000_S1200000x1_0 i) u

variable (m : (ℓ : Loc nD τ sig) → Buf (Elt Ideal) ℓ) (ρ : Dev nD → PrngReg)

/-! ## The message region's entry arrays, read back to the launch memory -/

theorem V1_v6 (c : Dev nD) : V1 m ρ c main_v6
    = gathered (m ((c.tc : Thread nD τ).loc main_arg0)) (m ((c.tc : Thread nD τ).loc main_arg8)) := by
  show StableHlo.after hostOps0 (W0 m ρ c) (Proc.devRef .tc main_v6) = _
  after_results
  all_goals rfl

theorem V1_arg1 (c : Dev nD) : V1 m ρ c main_arg1 = m ((c.tc : Thread nD τ).loc main_arg1) := by
  show StableHlo.after hostOps0 (W0 m ρ c) (Proc.devRef .tc main_arg1) = _
  after_results
  all_goals rfl

theorem V1_v8 (c : Dev nD) : V1 m ρ c main_v8 = wtTop (m ((c.tc : Thread nD τ).loc main_arg2)) := by
  show StableHlo.after hostOps0 (W0 m ρ c) (Proc.devRef .tc main_v8) = _
  after_results
  all_goals rfl

theorem V1_v9 (c : Dev nD) : V1 m ρ c main_v9 = wtBottom (m ((c.tc : Thread nD τ).loc main_arg2)) := by
  show StableHlo.after hostOps0 (W0 m ρ c) (Proc.devRef .tc main_v9) = _
  after_results
  all_goals rfl

theorem V1_v10 (c : Dev nD) : V1 m ρ c main_v10 = row128 (m ((c.tc : Thread nD τ).loc main_arg3)) := by
  show StableHlo.after hostOps0 (W0 m ρ c) (Proc.devRef .tc main_v10) = _
  after_results
  all_goals rfl

theorem V1_v11 (c : Dev nD) : V1 m ρ c main_v11 = row128 (m ((c.tc : Thread nD τ).loc main_arg4)) := by
  show StableHlo.after hostOps0 (W0 m ρ c) (Proc.devRef .tc main_v11) = _
  after_results
  all_goals rfl

theorem V1_v12 (c : Dev nD) : V1 m ρ c main_v12 = row128 (m ((c.tc : Thread nD τ).loc main_arg5)) := by
  show StableHlo.after hostOps0 (W0 m ρ c) (Proc.devRef .tc main_v12) = _
  after_results
  all_goals rfl

/-! ## An argument the first stretch and the message region leave alone, after both -/

theorem W2_arg0 (c : Dev nD) : W2 m ρ c (Proc.devRef .tc main_arg0) = m ((c.tc : Thread nD τ).loc main_arg0) := by
  rw [W2_of_ne m ρ c main_arg0 (by decide)]
  show StableHlo.after hostOps0 (W0 m ρ c) (Proc.devRef .tc main_arg0) = _
  after_results
  all_goals rfl

theorem W2_arg6 (c : Dev nD) : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results
  all_goals rfl

theorem W2_arg7 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results
  all_goals rfl

theorem W2_arg8 (c : Dev nD) : W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  after_results
  all_goals rfl

/-! ## The node region's entry arrays -/

theorem V3_arg0 (c : Dev nD) : V3 m ρ c main_arg0 = m ((c.tc : Thread nD τ).loc main_arg0) := by
  show StableHlo.after hostOps1 (W2 m ρ c) (Proc.devRef .tc main_arg0) = _
  after_results
  exact W2_arg0 m ρ c

theorem V3_v17 (c : Dev nD) : V3 m ρ c main_v17 = row64 (m ((c.tc : Thread nD τ).loc main_arg6)) := by
  show StableHlo.after hostOps1 (W2 m ρ c) (Proc.devRef .tc main_v17) = _
  after_results
  rw [W2_arg6 m ρ c]
  all_goals rfl

theorem V3_v18 (c : Dev nD) : V3 m ρ c main_v18 = row64 (m ((c.tc : Thread nD τ).loc main_arg7)) := by
  show StableHlo.after hostOps1 (W2 m ρ c) (Proc.devRef .tc main_v18) = _
  after_results
  rw [W2_arg7 m ρ c]
  all_goals rfl

/-- The aggregate the node region finds: the scatter-add of the message region's output array. -/
theorem V3_v16 (c : Dev nD) : V3 m ρ c main_v16
    = aggregated (m ((c.tc : Thread nD τ).loc main_arg8)) ((dat0 (V1 m ρ) c).arrAt 7 cfg0.N) := by
  show StableHlo.after hostOps1 (W2 m ρ c) (Proc.devRef .tc main_v16) = _
  after_results
  rw [W2_arg8 m ρ c, show W2 m ρ c (Proc.devRef .tc main_v13) = (dat0 (V1 m ρ) c).arrAt 7 cfg0.N from W2_arr m ρ c 7]
  all_goals rfl

/-! ## The result -/

/-- The kernel program's result buffer at the last boundary, as one term of the launch memory, given what each region
    leaves in its output array as a function of the arrays it finds. -/
theorem result_eq
    (hmsg : ∀ (V : (c : Dev nD) → (b : Ref sig .tc) → Buf (Elt Ideal) ((c : Thread nD τ).loc b)) (c : Dev nD),
      (dat0 (F := Ideal) V c).arrAt 7 cfg0.N
        = Cert.Spec.MsgG (V c main_v6) (V c main_arg1) (V c main_v8) (V c main_v9) (V c main_v10) (V c main_v11) (V c main_v12))
    (hnode : ∀ (V : (c : Dev nD) → (b : Ref sig .tc) → Buf (Elt Ideal) ((c : Thread nD τ).loc b)) (c : Dev nD),
      (dat1 (F := Ideal) V c).arrAt 4 cfg1.N
        = Cert.Spec.NodeG (V c main_arg0) (V c main_v16) (V c main_v17) (V c main_v18))
    (c : Dev nD) :
    W4 m ρ c (Proc.devRef .tc main_v19)
      = Cert.Spec.NodeG (m ((c.tc : Thread nD τ).loc main_arg0))
          (aggregated (m ((c.tc : Thread nD τ).loc main_arg8))
            (Cert.Spec.MsgG (gathered (m ((c.tc : Thread nD τ).loc main_arg0)) (m ((c.tc : Thread nD τ).loc main_arg8)))
              (m ((c.tc : Thread nD τ).loc main_arg1)) (wtTop (m ((c.tc : Thread nD τ).loc main_arg2)))
              (wtBottom (m ((c.tc : Thread nD τ).loc main_arg2))) (row128 (m ((c.tc : Thread nD τ).loc main_arg3)))
              (row128 (m ((c.tc : Thread nD τ).loc main_arg4))) (row128 (m ((c.tc : Thread nD τ).loc main_arg5)))))
          (row64 (m ((c.tc : Thread nD τ).loc main_arg6))) (row64 (m ((c.tc : Thread nD τ).loc main_arg7))) := by
  rw [show W4 m ρ c (Proc.devRef .tc main_v19) = (dat1 (V3 m ρ) c).arrAt 4 cfg1.N from W4_arr m ρ c 4]
  rw [hnode (V3 m ρ) c, V3_arg0 m ρ c, V3_v16 m ρ c, V3_v17 m ρ c, V3_v18 m ρ c]
  rw [hmsg (V1 m ρ) c, V1_v6 m ρ c, V1_arg1 m ρ c, V1_v8 m ρ c, V1_v9 m ρ c, V1_v10 m ρ c, V1_v11 m ρ c, V1_v12 m ρ c]

end Cert.KernelIdeal.HostValue

end
-- ==== Proof.Bridge.lean ====
/-
  The kernel's forms and the reference's forms of the two layers are the same functions.

  The kernel multiplies the gathered node row by rows 0 to 63 of Wᵀ and the edge row by rows 64 to 127 of Wᵀ and adds
  the two products; the reference joins the two rows into one of 128 lanes and multiplies once. Entry (a, k) of Wᵀ's top
  half is W at (k, a), of its bottom half W at (k, 64 + a), so the two sums of 64 terms are the two halves of the one sum
  of 128 terms: a sum over 128 lanes is the sum over the first 64 plus the sum over the last 64, which holds for any
  addition that is commutative and associative, the extended reals' included, with no appeal to finiteness. The bias, scale
  and shift vectors reach the kernel recast as one-row matrices, read at (0, k) where the reference reads k.
-/
import proofs.«128651_j36069135352226_1_alg».proof.Proof.KernelHost
import Idealize.ShloMosaic.Lib.ValueLayout
import Idealize.ShloMosaic.Lib.Pipeline.Value
import Mathlib.Algebra.BigOperators.Fin

noncomputable section

namespace Cert.KernelIdeal.Bridge

open Cert.KernelIdeal Cert.KernelIdeal.Facts₀ Cert.KernelIdeal.HostValue Idealize.ShloMosaic Idealize.ShloMosaic.ValueIdx

/-! ## The host layouts read at an index -/

/-- Entry (a, k) of the top half of Wᵀ is W at (k, a). -/
theorem wtTop_apply (w : (⟨S128x128, .f32⟩ : BufTy).Contents (Elt Ideal)) (a : Fin 64) (k : Fin 128) :
    wtTop w (ix2 a k) = w (ix2 k (⟨a.val, by omega⟩ : Fin 128)) := by
  show extractStridedSlice S64x128 ![0, 0] (transpose S128x128 [1, 0] w transposes_S128x128_S128x128_1_0) slices_S128x128_S64x128_0_0 (ix2 a k) = _
  rw [slice2_axis0_apply 0 _ slices_S128x128_S64x128_0_0 a k (⟨a.val, by omega⟩ : Fin 128) (by simp)]
  exact transpose_ix2_apply w transposes_S128x128_S128x128_1_0 _ _

/-- Entry (a, k) of the bottom half of Wᵀ is W at (k, 64 + a). -/
theorem wtBottom_apply (w : (⟨S128x128, .f32⟩ : BufTy).Contents (Elt Ideal)) (a : Fin 64) (k : Fin 128) :
    wtBottom w (ix2 a k) = w (ix2 k (⟨64 + a.val, by omega⟩ : Fin 128)) := by
  show extractStridedSlice S64x128 ![64, 0] (transpose S128x128 [1, 0] w transposes_S128x128_S128x128_1_0) slices_S128x128_S64x128_64_0 (ix2 a k) = _
  rw [slice2_axis0_apply 64 _ slices_S128x128_S64x128_64_0 a k (⟨64 + a.val, by omega⟩ : Fin 128) rfl]
  exact transpose_ix2_apply w transposes_S128x128_S128x128_1_0 _ _

/-- A vector of 128 recast as a row reads, at (0, k), the vector at k. -/
theorem row128_apply (v : (⟨S128, .f32⟩ : BufTy).Contents (Elt Ideal)) (k : Fin 128) :
    row128 v (ix2 (0 : Fin 1) k) = v (ix1 k) :=
  shapeCast_a_1a_apply v shapeCasts_S128_S1x128 0 k

/-- A vector of 64 recast as a row reads, at (0, a), the vector at a. -/
theorem row64_apply (v : (⟨S64, .f32⟩ : BufTy).Contents (Elt Ideal)) (a : Fin 64) :
    row64 v (ix2 (0 : Fin 1) a) = v (ix1 a) :=
  shapeCast_a_1a_apply v shapeCasts_S64_S1x64 0 a

/-! ## One sum of 128 terms is two sums of 64 -/

theorem sum_halves (f : Fin 128 → EReal) :
    ∑ a, f a = (∑ a : Fin 64, f ⟨a.val, by omega⟩) + ∑ a : Fin 64, f ⟨64 + a.val, by omega⟩ :=
  Fin.sum_univ_add (a := 64) (b := 64) f

theorem catRow_low (gr er : Fin 64 → EReal) (a : Fin 64) : Cert.Spec.catRow gr er ⟨a.val, by omega⟩ = gr a := by
  unfold Cert.Spec.catRow
  rw [dif_pos a.isLt]

theorem catRow_high (gr er : Fin 64 → EReal) (a : Fin 64) : Cert.Spec.catRow gr er ⟨64 + a.val, by omega⟩ = er a := by
  unfold Cert.Spec.catRow
  rw [dif_neg (by show ¬ (64 + a.val < 64); omega)]
  exact congrArg er (Fin.ext (by show 64 + a.val - 64 = a.val; omega))

/-- The pre-activation row: the kernel's two products over the halves of Wᵀ plus the bias row are the reference's one
    product over the joined row against W read transposed plus the bias. -/
theorem linRow_eq (gr er : Fin 64 → EReal) (w : (⟨S128x128, .f32⟩ : BufTy).Contents (Elt Ideal))
    (b : (⟨S128, .f32⟩ : BufTy).Contents (Elt Ideal)) :
    Cert.Spec.linRow gr er (fun a k => wtTop w (ix2 a k)) (fun a k => wtBottom w (ix2 a k)) (fun k => row128 b (ix2 (0 : Fin 1) k))
      = Cert.Spec.linRowJoined gr er (fun k a => w (ix2 k a)) (fun k => b (ix1 k)) := by
  funext k
  unfold Cert.Spec.linRow Cert.Spec.linRowJoined
  rw [sum_halves]
  simp only [wtTop_apply, wtBottom_apply, row128_apply, catRow_low, catRow_high]

/-! ## The two layers -/

/-- The message array: the kernel's form at the host-prepared arrays is the reference's form at the raw arguments. -/
theorem msgG_eq_msgR (g e : (⟨S1200000x64, .f32⟩ : BufTy).Contents (Elt Ideal)) (w : (⟨S128x128, .f32⟩ : BufTy).Contents (Elt Ideal))
    (b g1 be1 : (⟨S128, .f32⟩ : BufTy).Contents (Elt Ideal)) :
    Cert.Spec.MsgG g e (wtTop w) (wtBottom w) (row128 b) (row128 g1) (row128 be1) = Cert.Spec.MsgR g e w b g1 be1 := by
  funext i
  unfold Cert.Spec.MsgG Cert.Spec.MsgR
  rw [linRow_eq]
  simp only [row128_apply]

/-- The result array: the kernel's form at the scale and shift rows is the reference's form at the vectors. -/
theorem nodeG_eq_nodeR (x agg : (⟨S100000x64, .f32⟩ : BufTy).Contents (Elt Ideal)) (g2 be2 : (⟨S64, .f32⟩ : BufTy).Contents (Elt Ideal)) :
    Cert.Spec.NodeG x agg (row64 g2) (row64 be2) = Cert.Spec.NodeR x agg g2 be2 := by
  funext i
  unfold Cert.Spec.NodeG Cert.Spec.NodeR
  simp only [row64_apply]

end Cert.KernelIdeal.Bridge

end
-- ==== Proof.CrossProgram.lean ====
/-
  The two programs apply the SAME host functions around their layers: the gather of node rows at the wrapped indices and
  the scatter-add of message rows at the raw indices are printed once per program, each over its own copy of the dimension
  records, and the copies are the same records. So the reference's result, read stage by stage (the two hypotheses: its
  message stage and its last stage as functions of the arguments), is the common term the kernel's result is shown equal
  to: the node layer of the scatter-add of the message layer of the gathered rows.
-/
import proofs.«128651_j36069135352226_1_alg».proof.Proof.KernelHost
import proofs.«128651_j36069135352226_1_alg».proof.Proof.RefReadP

noncomputable section

namespace Cert.CrossProgram

open Idealize.ShloMosaic Idealize.ShloMosaic.TcCoe
open Cert.KernelIdeal.HostValue Cert.ReferenceIdeal.ReadP

/-- The reference's gather stage is the kernel program's gather: same operand, same wrapped index column, same record. -/
theorem gather_same (x0 : (⟨Cert.ReferenceIdeal.S100000x64, .f32⟩ : BufTy).Contents (Elt Ideal))
    (x8 : (⟨Cert.ReferenceIdeal.S1200000, .i32⟩ : BufTy).Contents (Elt Ideal)) :
    val_main_v6 (F := Ideal) x0 x8 = gathered x0 x8 := rfl

/-- The reference's scatter-add stage over a message array is the kernel program's scatter-add over it. -/
theorem scatter_same (x8 : (⟨Cert.ReferenceIdeal.S1200000, .i32⟩ : BufTy).Contents (Elt Ideal))
    (u : (⟨Cert.ReferenceIdeal.S1200000x64, .f32⟩ : BufTy).Contents (Elt Ideal)) :
    Host.scatterAdd (F := Ideal) (φ := .f32) Cert.ReferenceIdeal.scatter_S100000x64_S1200000x1_S1200000x64_1_0_0_1
        (val_main_v47 (F := Ideal)) (val_main_v48 (F := Ideal) x8) u
      = aggregated x8 u := rfl

/-- The reference's result as the common term, given its message stage and its last stage read as functions of the
    arguments. -/
theorem ref_result
    (hmsg : ∀ (x0 : (⟨Cert.ReferenceIdeal.S100000x64, .f32⟩ : BufTy).Contents (Elt Ideal)) (x1 : (⟨Cert.ReferenceIdeal.S1200000x64, .f32⟩ : BufTy).Contents (Elt Ideal))
      (x2 : (⟨Cert.ReferenceIdeal.S128x128, .f32⟩ : BufTy).Contents (Elt Ideal)) (x3 x4 x5 : (⟨Cert.ReferenceIdeal.S128, .f32⟩ : BufTy).Contents (Elt Ideal))
      (x8 : (⟨Cert.ReferenceIdeal.S1200000, .i32⟩ : BufTy).Contents (Elt Ideal)),
      val_main_v46 (F := Ideal) x0 x1 x2 x3 x4 x5 x8 = Cert.Spec.MsgR (val_main_v6 (F := Ideal) x0 x8) x1 x2 x3 x4 x5)
    (hout : ∀ (x0 : (⟨Cert.ReferenceIdeal.S100000x64, .f32⟩ : BufTy).Contents (Elt Ideal)) (x1 : (⟨Cert.ReferenceIdeal.S1200000x64, .f32⟩ : BufTy).Contents (Elt Ideal))
      (x2 : (⟨Cert.ReferenceIdeal.S128x128, .f32⟩ : BufTy).Contents (Elt Ideal)) (x3 x4 x5 : (⟨Cert.ReferenceIdeal.S128, .f32⟩ : BufTy).Contents (Elt Ideal))
      (x6 x7 : (⟨Cert.ReferenceIdeal.S64, .f32⟩ : BufTy).Contents (Elt Ideal)) (x8 : (⟨Cert.ReferenceIdeal.S1200000, .i32⟩ : BufTy).Contents (Elt Ideal)),
      val_main_v75 (F := Ideal) x0 x1 x2 x3 x4 x5 x6 x7 x8 = Cert.Spec.NodeR x0 (val_main_v49 (F := Ideal) x0 x1 x2 x3 x4 x5 x8) x6 x7)
    (x0 : (⟨Cert.ReferenceIdeal.S100000x64, .f32⟩ : BufTy).Contents (Elt Ideal)) (x1 : (⟨Cert.ReferenceIdeal.S1200000x64, .f32⟩ : BufTy).Contents (Elt Ideal))
    (x2 : (⟨Cert.ReferenceIdeal.S128x128, .f32⟩ : BufTy).Contents (Elt Ideal)) (x3 x4 x5 : (⟨Cert.ReferenceIdeal.S128, .f32⟩ : BufTy).Contents (Elt Ideal))
    (x6 x7 : (⟨Cert.ReferenceIdeal.S64, .f32⟩ : BufTy).Contents (Elt Ideal)) (x8 : (⟨Cert.ReferenceIdeal.S1200000, .i32⟩ : BufTy).Contents (Elt Ideal)) :
    val_main_v75 (F := Ideal) x0 x1 x2 x3 x4 x5 x6 x7 x8
      = Cert.Spec.NodeR x0 (aggregated x8 (Cert.Spec.MsgR (gathered x0 x8) x1 x2 x3 x4 x5)) x6 x7 := by
  rw [hout]
  unfold val_main_v49
  rw [hmsg, gather_same, scatter_same]

end Cert.CrossProgram

end
-- ==== Proof.RefValue.lean ====
/-
  The reference program's value, read stage by stage. Row r of the joined array carries the gathered node row on its
  first 64 lanes and the edge row on its last 64; the pre-activation row is that joined row against W read transposed,
  plus the bias; mean, variance and the normalised row follow lane by lane; the message is 1/(1 + exp(-u)) times tanh v
  on the two halves of the normalised row, and 1/(1 + exp(-u)) is the logistic function. The node stage is the same
  normalisation over 64 lanes of the aggregated rows, added to the node's own row under tanh.
-/
import proofs.«128651_j36069135352226_1_alg».proof.Proof.RefReadP
import proofs.«128651_j36069135352226_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Cert.ReferenceIdeal.ReadP Idealize.ShloMosaic.ValueIdx Cert.Spec

/-- The word of 1.0 denotes the extended real 1. -/
theorem one_word : Ideal.ofBits .f32 0x3F800000#32 = 1 := by
  simp [Ideal.ofBits, Ideal.ieee, -EReal.coe_mul]; norm_num

section Msg

variable (x0 : (⟨S100000x64, .f32⟩ : BufTy).Contents (Elt Ideal)) (x1 : (⟨S1200000x64, .f32⟩ : BufTy).Contents (Elt Ideal))
  (x2 : (⟨S128x128, .f32⟩ : BufTy).Contents (Elt Ideal)) (x3 x4 x5 : (⟨S128, .f32⟩ : BufTy).Contents (Elt Ideal))
  (x8 : (⟨S1200000, .i32⟩ : BufTy).Contents (Elt Ideal))

/-- The pre-activation row of edge r, as the specification spells it over the reference's arrays. -/
abbrev pre (r : Fin 1200000) : Fin 128 → EReal :=
  linRowJoined (fun a => val_main_v6 (F := Ideal) x0 x8 (ix2 r a)) (fun a => x1 (ix2 r a))
    (fun k a => x2 (ix2 k a)) (fun k => x3 (ix1 k))

/-- The joined array at row r, lane a: the gathered row below lane 64, the edge row from lane 64 on. -/
theorem cat_at (r : Fin 1200000) (a : Fin 128) :
    val_main_v7 (F := Ideal) x0 x1 x8 (ix2 r a)
      = catRow (fun a => val_main_v6 (F := Ideal) x0 x8 (ix2 r a)) (fun a => x1 (ix2 r a)) a := by
  unfold val_main_v7
  generalize val_main_v6 (F := Ideal) x0 x8 = g
  unfold catRow
  by_cases h : a.val < 64
  · rw [dif_pos h]
    exact concatenate_pair_apply_left 1 g x1 concatenates_S1200000x64_S1200000x64_S1200000x128_d1 (ix2 r a) rfl
      (ix2 r ⟨a.val, h⟩) (fun b => match b with | ⟨0, _⟩ => rfl | ⟨1, _⟩ => rfl)
  · rw [dif_neg h]
    exact concatenate_pair_apply_right 1 g x1 concatenates_S1200000x64_S1200000x64_S1200000x128_d1 (ix2 r a) rfl rfl
      (ix2 r ⟨a.val - 64, by omega⟩)
      (fun b hb => match b, hb with | ⟨0, _⟩, _ => rfl | ⟨1, _⟩, hb => absurd rfl hb)
      (by show (a.val - 64) + 64 = a.val; omega)

/-- The pre-activation array at (r, k). -/
theorem pre_at (r : Fin 1200000) (k : Fin 128) :
    val_main_v12 (F := Ideal) x0 x1 x2 x3 x8 (ix2 r k) = pre x0 x1 x2 x3 x8 r k := by
  rw [val_main_v12_apply, val_main_v9_apply, val_main_v11_apply, val_main_v10_apply]
  simp only [Ideal.addf_def]
  unfold pre linRowJoined
  refine congrArg₂ (· + ·) (Finset.sum_congr rfl fun a _ => ?_) ?_
  · show _ = catRow (fun a => val_main_v6 (F := Ideal) x0 x8 (ix2 r a)) (fun a => x1 (ix2 r a)) a * x2 (ix2 k a)
    have el : lidx_main_v9 (ix2 r k) a = ix2 r a :=
      funext fun d => Fin.ext (by match d with | ⟨0, _⟩ => rfl | ⟨1, _⟩ => rfl)
    have er : idx_main_v8 (ridx_main_v9 (ix2 r k) a) = ix2 k a :=
      funext fun d => Fin.ext (by match d with | ⟨0, _⟩ => rfl | ⟨1, _⟩ => rfl)
    rw [val_main_v8_apply, el, er, cat_at]
  · exact congrArg x3 (funext fun d => Fin.ext (by match d with | ⟨0, _⟩ => rfl))

/-- The row mean array at row r. -/
theorem mean_at (r : Fin 1200000) :
    val_main_v16 (F := Ideal) x0 x1 x2 x3 x8 (ix2 r (0 : Fin 1)) = rowMean w128 (pre x0 x1 x2 x3 x8 r) := by
  rw [val_main_v16_apply, val_main_v14_apply, val_main_v13_apply, val_main_v15_apply, val_main_cst_apply,
    val_main_cst_1_apply]
  simp only [Ideal.hostDivf_def, Ideal.ofBits_def, Ideal.ofBits_zero_f32, zero_add]
  unfold rowMean
  refine congrArg (Ideal.div · _) (Finset.sum_congr rfl fun k _ => ?_)
  have e : idx_main_v13 (idx_main_v14 (ix2 r (0 : Fin 1))) k = ix2 r k :=
    funext fun d => Fin.ext (by match d with | ⟨0, _⟩ => rfl | ⟨1, _⟩ => rfl)
  rw [e, pre_at]

/-- The row variance array at row r. -/
theorem var_at (r : Fin 1200000) :
    val_main_v23 (F := Ideal) x0 x1 x2 x3 x8 (ix2 r (0 : Fin 1)) = rowVar w128 (pre x0 x1 x2 x3 x8 r) := by
  rw [val_main_v23_apply, val_main_v21_apply, val_main_v20_apply, val_main_v22_apply, val_main_cst_2_apply,
    val_main_cst_3_apply]
  simp only [Ideal.hostDivf_def, Ideal.ofBits_def, Ideal.ofBits_zero_f32, zero_add]
  unfold rowVar
  refine congrArg (Ideal.div · _) (Finset.sum_congr rfl fun k _ => ?_)
  have e : idx_main_v20 (idx_main_v21 (ix2 r (0 : Fin 1))) k = ix2 r k :=
    funext fun d => Fin.ext (by match d with | ⟨0, _⟩ => rfl | ⟨1, _⟩ => rfl)
  have e17 : idx_main_v17 (ix2 r k) = ix2 r (0 : Fin 1) :=
    funext fun d => Fin.ext (by match d with | ⟨0, _⟩ => rfl | ⟨1, _⟩ => rfl)
  rw [e, val_main_v19_apply, val_main_v18_apply, val_main_v17_apply, e17, pre_at, mean_at]
  simp only [Ideal.mulf_def, Ideal.subf_def]

/-- The normalised array at (r, k). -/
theorem ln_at (r : Fin 1200000) (k : Fin 128) :
    val_main_v36 (F := Ideal) x0 x1 x2 x3 x4 x5 x8 (ix2 r k)
      = lnRow w128 (pre x0 x1 x2 x3 x8 r) (fun k => x4 (ix1 k)) (fun k => x5 (ix1 k)) k := by
  have e24 : idx_main_v24 (ix2 r k) = ix2 r (0 : Fin 1) :=
    funext fun d => Fin.ext (by match d with | ⟨0, _⟩ => rfl | ⟨1, _⟩ => rfl)
  have e29 : idx_main_v29 (ix2 r k) = ix2 r (0 : Fin 1) :=
    funext fun d => Fin.ext (by match d with | ⟨0, _⟩ => rfl | ⟨1, _⟩ => rfl)
  have e31 : idx_main_v31 (idx_main_v32 (ix2 r k)) = ix1 k :=
    funext fun d => Fin.ext (by match d with | ⟨0, _⟩ => rfl)
  have e34 : idx_main_v34 (idx_main_v35 (ix2 r k)) = ix1 k :=
    funext fun d => Fin.ext (by match d with | ⟨0, _⟩ => rfl)
  rw [val_main_v36_apply, val_main_v33_apply, val_main_v30_apply, val_main_v25_apply, val_main_v24_apply,
    val_main_v29_apply, val_main_v28_apply, val_main_v27_apply, val_main_v26_apply, val_main_cst_4_apply,
    val_main_v32_apply, val_main_v31_apply, val_main_v35_apply, val_main_v34_apply,
    e24, e29, e31, e34, pre_at, mean_at, var_at]
  simp only [Ideal.addf_def, Ideal.mulf_def, Ideal.subf_def, Ideal.hostUnary_rsqrt_def, Ideal.ofBits_def]
  rfl

/-- The message array at (r, j). -/
theorem msg_at (r : Fin 1200000) (j : Fin 64) :
    val_main_v46 (F := Ideal) x0 x1 x2 x3 x4 x5 x8 (ix2 r j)
      = msgRow (pre x0 x1 x2 x3 x8 r) (fun k => x4 (ix1 k)) (fun k => x5 (ix1 k)) j := by
  have e37 : idx_main_v37 (ix2 r j) = ix2 r (⟨j.val, by omega⟩ : Fin 128) :=
    funext fun d => Fin.ext (by match d with | ⟨0, _⟩ => rfl | ⟨1, _⟩ => rfl)
  have e38 : idx_main_v38 (ix2 r j) = ix2 r (⟨64 + j.val, by omega⟩ : Fin 128) :=
    funext fun d => Fin.ext (by match d with | ⟨0, _⟩ => rfl | ⟨1, _⟩ => rfl)
  rw [val_main_v46_apply, val_main_v44_apply, val_main_v43_apply, val_main_cst_6_apply, val_main_v42_apply,
    val_main_v41_apply, val_main_cst_5_apply, val_main_v40_apply, val_main_v39_apply, val_main_v37_apply,
    val_main_v45_apply, val_main_v38_apply, e37, e38, ln_at, ln_at]
  simp only [Ideal.hostDivf_def, Ideal.addf_def, Ideal.mulf_def, Ideal.hostUnary_exp_def, Ideal.hostUnary_tanh_def,
    Ideal.hostNegf_def, Ideal.negf_def, Ideal.ofBits_def, one_word]
  rfl

end Msg

theorem ref_msg (x0 : (⟨S100000x64, .f32⟩ : BufTy).Contents (Elt Ideal)) (x1 : (⟨S1200000x64, .f32⟩ : BufTy).Contents (Elt Ideal))
    (x2 : (⟨S128x128, .f32⟩ : BufTy).Contents (Elt Ideal)) (x3 x4 x5 : (⟨S128, .f32⟩ : BufTy).Contents (Elt Ideal))
    (x8 : (⟨S1200000, .i32⟩ : BufTy).Contents (Elt Ideal)) :
    val_main_v46 (F := Ideal) x0 x1 x2 x3 x4 x5 x8
      = Cert.Spec.MsgR (val_main_v6 (F := Ideal) x0 x8) x1 x2 x3 x4 x5 := by
  funext i
  obtain ⟨r, j, rfl⟩ : ∃ (r : Fin 1200000) (j : Fin 64), i = ix2 r j := ⟨i 0, i 1, eq_ix2 i⟩
  rw [msg_at]
  rfl

section Node

variable (x0 : (⟨S100000x64, .f32⟩ : BufTy).Contents (Elt Ideal)) (x1 : (⟨S1200000x64, .f32⟩ : BufTy).Contents (Elt Ideal))
  (x2 : (⟨S128x128, .f32⟩ : BufTy).Contents (Elt Ideal)) (x3 x4 x5 : (⟨S128, .f32⟩ : BufTy).Contents (Elt Ideal))
  (x6 x7 : (⟨S64, .f32⟩ : BufTy).Contents (Elt Ideal)) (x8 : (⟨S1200000, .i32⟩ : BufTy).Contents (Elt Ideal))

/-- Row n of an array of node rows. -/
abbrev rowOf (y : SN64.Idx → EReal) (n : Fin 100000) : Fin 64 → EReal := fun a => y (ix2 n a)

/-- The mean of the aggregated row n. -/
theorem nmean_at (n : Fin 100000) :
    val_main_v53 (F := Ideal) x0 x1 x2 x3 x4 x5 x8 (ix2 n (0 : Fin 1))
      = rowMean w64 (rowOf (val_main_v49 (F := Ideal) x0 x1 x2 x3 x4 x5 x8) n) := by
  rw [val_main_v53_apply, val_main_v51_apply, val_main_v50_apply, val_main_v52_apply, val_main_cst_8_apply,
    val_main_cst_9_apply]
  generalize val_main_v49 (F := Ideal) x0 x1 x2 x3 x4 x5 x8 = y
  simp only [Ideal.hostDivf_def, Ideal.ofBits_def, Ideal.ofBits_zero_f32, zero_add]
  unfold rowMean
  refine congrArg (Ideal.div · _) (Finset.sum_congr rfl fun k _ => ?_)
  exact congrArg y (funext fun d => Fin.ext (by match d with | ⟨0, _⟩ => rfl | ⟨1, _⟩ => rfl))

/-- The squared deviation of the aggregated array from its row mean, at (n, k). -/
theorem dev_at (n : Fin 100000) (k : Fin 64) :
    val_main_v56 (F := Ideal) x0 x1 x2 x3 x4 x5 x8 (ix2 n k)
      = (val_main_v49 (F := Ideal) x0 x1 x2 x3 x4 x5 x8 (ix2 n k)
          - rowMean w64 (rowOf (val_main_v49 (F := Ideal) x0 x1 x2 x3 x4 x5 x8) n))
        * (val_main_v49 (F := Ideal) x0 x1 x2 x3 x4 x5 x8 (ix2 n k)
          - rowMean w64 (rowOf (val_main_v49 (F := Ideal) x0 x1 x2 x3 x4 x5 x8) n)) := by
  have e54 : idx_main_v54 (ix2 n k) = ix2 n (0 : Fin 1) :=
    funext fun d => Fin.ext (by match d with | ⟨0, _⟩ => rfl | ⟨1, _⟩ => rfl)
  rw [val_main_v56_apply, val_main_v55_apply, val_main_v54_apply, e54, nmean_at]
  generalize val_main_v49 (F := Ideal) x0 x1 x2 x3 x4 x5 x8 = y
  simp only [Ideal.mulf_def, Ideal.subf_def]

/-- The variance of the aggregated row n. -/
theorem nvar_at (n : Fin 100000) :
    val_main_v60 (F := Ideal) x0 x1 x2 x3 x4 x5 x8 (ix2 n (0 : Fin 1))
      = rowVar w64 (rowOf (val_main_v49 (F := Ideal) x0 x1 x2 x3 x4 x5 x8) n) := by
  have hs : ∀ k : Fin 64, val_main_v56 (F := Ideal) x0 x1 x2 x3 x4 x5 x8 (idx_main_v57 (idx_main_v58 (ix2 n (0 : Fin 1))) k)
      = (val_main_v49 (F := Ideal) x0 x1 x2 x3 x4 x5 x8 (ix2 n k)
          - rowMean w64 (rowOf (val_main_v49 (F := Ideal) x0 x1 x2 x3 x4 x5 x8) n))
        * (val_main_v49 (F := Ideal) x0 x1 x2 x3 x4 x5 x8 (ix2 n k)
          - rowMean w64 (rowOf (val_main_v49 (F := Ideal) x0 x1 x2 x3 x4 x5 x8) n)) := fun k =>
    (congrArg (val_main_v56 (F := Ideal) x0 x1 x2 x3 x4 x5 x8)
      (funext fun d => Fin.ext (by match d with | ⟨0, _⟩ => rfl | ⟨1, _⟩ => rfl))).trans (dev_at x0 x1 x2 x3 x4 x5 x8 n k)
  rw [val_main_v60_apply, val_main_v58_apply, val_main_v57_apply, val_main_v59_apply, val_main_cst_10_apply,
    val_main_cst_11_apply]
  simp only [hs]
  generalize val_main_v49 (F := Ideal) x0 x1 x2 x3 x4 x5 x8 = y
  simp only [Ideal.hostDivf_def, Ideal.ofBits_def, Ideal.ofBits_zero_f32, zero_add]
  rfl

/-- The result array at (n, j). -/
theorem out_at (n : Fin 100000) (j : Fin 64) :
    val_main_v75 (F := Ideal) x0 x1 x2 x3 x4 x5 x6 x7 x8 (ix2 n j)
      = nodeRow (x0 (ix2 n j)) (rowOf (val_main_v49 (F := Ideal) x0 x1 x2 x3 x4 x5 x8) n)
          (fun a => x6 (ix1 a)) (fun a => x7 (ix1 a)) j := by
  have e61 : idx_main_v61 (ix2 n j) = ix2 n (0 : Fin 1) :=
    funext fun d => Fin.ext (by match d with | ⟨0, _⟩ => rfl | ⟨1, _⟩ => rfl)
  have e66 : idx_main_v66 (ix2 n j) = ix2 n (0 : Fin 1) :=
    funext fun d => Fin.ext (by match d with | ⟨0, _⟩ => rfl | ⟨1, _⟩ => rfl)
  have e68 : idx_main_v68 (idx_main_v69 (ix2 n j)) = ix1 j :=
    funext fun d => Fin.ext (by match d with | ⟨0, _⟩ => rfl)
  have e71 : idx_main_v71 (idx_main_v72 (ix2 n j)) = ix1 j :=
    funext fun d => Fin.ext (by match d with | ⟨0, _⟩ => rfl)
  rw [val_main_v75_apply, val_main_v74_apply, val_main_v73_apply, val_main_v70_apply, val_main_v67_apply,
    val_main_v62_apply, val_main_v61_apply, val_main_v66_apply, val_main_v65_apply, val_main_v64_apply,
    val_main_v63_apply, val_main_cst_12_apply, val_main_v69_apply, val_main_v68_apply, val_main_v72_apply,
    val_main_v71_apply, e61, e66, e68, e71, nmean_at, nvar_at]
  generalize val_main_v49 (F := Ideal) x0 x1 x2 x3 x4 x5 x8 = y
  simp only [Ideal.addf_def, Ideal.mulf_def, Ideal.subf_def, Ideal.hostUnary_rsqrt_def, Ideal.hostUnary_tanh_def,
    Ideal.ofBits_def]
  rfl

end Node

theorem ref_out (x0 : (⟨S100000x64, .f32⟩ : BufTy).Contents (Elt Ideal)) (x1 : (⟨S1200000x64, .f32⟩ : BufTy).Contents (Elt Ideal))
    (x2 : (⟨S128x128, .f32⟩ : BufTy).Contents (Elt Ideal)) (x3 x4 x5 : (⟨S128, .f32⟩ : BufTy).Contents (Elt Ideal))
    (x6 x7 : (⟨S64, .f32⟩ : BufTy).Contents (Elt Ideal)) (x8 : (⟨S1200000, .i32⟩ : BufTy).Contents (Elt Ideal)) :
    val_main_v75 (F := Ideal) x0 x1 x2 x3 x4 x5 x6 x7 x8
      = Cert.Spec.NodeR x0 (val_main_v49 (F := Ideal) x0 x1 x2 x3 x4 x5 x8) x6 x7 := by
  funext i
  obtain ⟨n, j, rfl⟩ : ∃ (n : Fin 100000) (j : Fin 64), i = ix2 n j := ⟨i 0, i 1, eq_ix2 i⟩
  rw [out_at]
  generalize val_main_v49 (F := Ideal) x0 x1 x2 x3 x4 x5 x8 = y
  rfl

end Cert.ReferenceIdeal.RefValue

end
-- ==== Proof.Claims.lean ====
/-
  The five claims, from the pieces.

  Both idealized programs end with the same array: the node layer (tanh of the node's row plus the layer-normalised
  aggregate row) of the scatter-add, at the raw indices, of the message layer (sigmoid times tanh of the two halves of the
  layer-normalised pre-activation row) of the node rows gathered at the wrapped indices. The kernel program reaches it
  through its two regions and the host operations around them, in the kernel's arrangement (two half products, one-row
  matrices), which is the reference's arrangement (one product over the joined row, vectors) by a re-indexing of sums;
  the reference reaches it stage by stage. The frames of the two kernel programs are their generated frames; the
  reference's frame is its run with the result dropped; the idealization rewrote nothing, so there is nothing to preserve.
-/
import proofs.«128651_j36069135352226_1_alg».proof.Defs
import proofs.«128651_j36069135352226_1_alg».proof.Proof.Gen.Kernel.Frame
import proofs.«128651_j36069135352226_1_alg».proof.Proof.Gen.KernelIdeal.Frame
import proofs.«128651_j36069135352226_1_alg».proof.Proof.Gen.Pre_finite_inputs
import proofs.«128651_j36069135352226_1_alg».proof.Proof.KernelRun
import proofs.«128651_j36069135352226_1_alg».proof.Proof.KernelHost
import proofs.«128651_j36069135352226_1_alg».proof.Proof.Bridge
import proofs.«128651_j36069135352226_1_alg».proof.Proof.CrossProgram
import proofs.«128651_j36069135352226_1_alg».proof.Proof.RefValue

noncomputable section

namespace Cert.Proof.Claims

open Idealize.ShloMosaic Idealize.ShloMosaic.TcCoe Idealize.SL.Sem
open Cert.KernelIdeal.HostValue

/-- The array both programs end with, as a function of the kernel program's launch memory. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v19) :=
  Cert.Spec.NodeR (m ((c.tc : Thread Cert.KernelIdeal.nD Cert.KernelIdeal.τ).loc Cert.KernelIdeal.main_arg0))
    (aggregated (m ((c.tc : Thread Cert.KernelIdeal.nD Cert.KernelIdeal.τ).loc Cert.KernelIdeal.main_arg8))
      (Cert.Spec.MsgR
        (gathered (m ((c.tc : Thread Cert.KernelIdeal.nD Cert.KernelIdeal.τ).loc Cert.KernelIdeal.main_arg0))
          (m ((c.tc : Thread Cert.KernelIdeal.nD Cert.KernelIdeal.τ).loc Cert.KernelIdeal.main_arg8)))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))

/-- What the two regions leave in their output arrays, as functions of the arrays they find: the two facts the kernel
    side rests on, proved in the region modules. -/
abbrev MsgFact : Prop :=
  ∀ (V : (c : Dev Cert.KernelIdeal.nD) → (b : Ref Cert.KernelIdeal.sig .tc) → Buf (Elt Ideal) ((c : Thread Cert.KernelIdeal.nD Cert.KernelIdeal.τ).loc b))
    (c : Dev Cert.KernelIdeal.nD),
    (Cert.KernelIdeal.Gen.dat0 (F := Ideal) V c).arrAt 7 Cert.KernelIdeal.cfg0.N
      = Cert.Spec.MsgG (V c Cert.KernelIdeal.main_v6) (V c Cert.KernelIdeal.main_arg1) (V c Cert.KernelIdeal.main_v8) (V c Cert.KernelIdeal.main_v9)
          (V c Cert.KernelIdeal.main_v10) (V c Cert.KernelIdeal.main_v11) (V c Cert.KernelIdeal.main_v12)

abbrev NodeFact : Prop :=
  ∀ (V : (c : Dev Cert.KernelIdeal.nD) → (b : Ref Cert.KernelIdeal.sig .tc) → Buf (Elt Ideal) ((c : Thread Cert.KernelIdeal.nD Cert.KernelIdeal.τ).loc b))
    (c : Dev Cert.KernelIdeal.nD),
    (Cert.KernelIdeal.Gen.dat1 (F := Ideal) V c).arrAt 4 Cert.KernelIdeal.cfg1.N
      = Cert.Spec.NodeG (V c Cert.KernelIdeal.main_arg0) (V c Cert.KernelIdeal.main_v16) (V c Cert.KernelIdeal.main_v17) (V c Cert.KernelIdeal.main_v18)

/-- The kernel program's result buffer at the last boundary is the common array. -/
theorem kernel_result (hmsg : MsgFact) (hnode : NodeFact)
    (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Gen.W4 m ρ c (Proc.devRef .tc Cert.KernelIdeal.main_v19) = result m c := by
  rw [result_eq m ρ hmsg hnode c, Cert.KernelIdeal.Bridge.msgG_eq_msgR, Cert.KernelIdeal.Bridge.nodeG_eq_nodeR]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both idealized programs run and end with the common array. -/
theorem algebraic (hmsg : MsgFact) (hnode : NodeFact) : Cert.algebraic_KernelIdeal_ReferenceIdeal := by
  intro m ρ m' ρ' _ hagree
  refine ⟨fun c => result m c, ?_, ?_⟩
  · exact (θ_run Cert.KernelIdeal.defs _ _).mono
      (fun r h c => ⟨(h c).1.trans (kernel_result hmsg hnode m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8⟩ := hagree c
    rw [Cert.ReferenceIdeal.ReadP.val_main_v75_eq,
      Cert.CrossProgram.ref_result Cert.ReferenceIdeal.RefValue.ref_msg Cert.ReferenceIdeal.RefValue.ref_out,
      h0, h1, h2, h3, h4, h5, h6, h7, h8]
    rfl

end Cert.Proof.Claims

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.MsgRegion.lean ====
/-
  The message region's array. The region runs over 100 blocks of 12000 edge rows. At row p and lane j of a block the
  body's one stored value is sigmoid(lane j) · tanh(lane 64 + j) of the layer-normalised pre-activation row of that
  edge, the pre-activation row being the gathered node row against the upper half of Wᵀ plus the edge row against
  the lower half plus the bias row. Block t of the two row-blocked inputs and of the output is rows 12000·t to
  12000·t + 11999 of its array, the other five inputs are read whole at every point, and the 100 output blocks tile the
  1200000 rows; so the array the region leaves is the specification's message array, as one function of the seven
  arrays the region finds on entry.
-/
import proofs.«128651_j36069135352226_1_alg».proof.Proof.Gen.KernelIdeal.Frame
import proofs.«128651_j36069135352226_1_alg».proof.Proof.Spec
import proofs.«128651_j36069135352226_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MsgRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The operations that are not lane-by-lane, each read at a position -/

/-- Summing a [12000, 128] block along its lanes gives, at row p, the sum over the 128 lanes of that row. -/
theorem laneSum_apply (v : FVec Ideal S12000x128 .f32) (hφ : FTy.f32 = FTy.f32 ∨ FTy.f32 = FTy.bf16)
    (hacc : (0x00000000#32 : BitVec 32) = 0x00000000#32) (p : Fin 12000) :
    multiReduction .add [1] S12000 v 0x00000000#32 reduces_S12000x128_S12000 hφ hacc (ix1 p) = ∑ k : Fin 128, v (ix2 p k) :=
  (Ideal.multiReduction_add_single v 0x00000000#32 reduces_S12000x128_S12000 hφ hacc (ix1 p)).trans
    (Finset.sum_congr rfl fun k _ => congrArg v (funext fun a => Fin.ext (by
      match a with
      | ⟨0, _⟩ => rfl
      | ⟨1, _⟩ => rfl)))

/-- The product's left operand index at output position i and contraction index q: row i 0 … -/
theorem lhs_mm_0 (i : S12000x128.Idx) (q : dot_S12000x64_S64x128_S12000x128_1_0_0_1_n_n.contr.Idx) :
    (dot_S12000x64_S64x128_S12000x128_1_0_0_1_n_n.lhsIdx i q 0).val = (i 0).val := by
  unfold DotDims.lhsIdx
  rw [dif_neg (show ¬(0 : Fin S12000x64.rank) ∈ dot_S12000x64_S64x128_S12000x128_1_0_0_1_n_n.lhsBatch by decide), dif_pos (show (0 : Fin S12000x64.rank) ∈ dot_S12000x64_S64x128_S12000x128_1_0_0_1_n_n.lhsNonContracting by decide)]
  rfl
/-- … and column q. -/
theorem lhs_mm_1 (i : S12000x128.Idx) (q : dot_S12000x64_S64x128_S12000x128_1_0_0_1_n_n.contr.Idx) :
    (dot_S12000x64_S64x128_S12000x128_1_0_0_1_n_n.lhsIdx i q 1).val = (q ⟨0, by decide⟩).val :=
  dot_S12000x64_S64x128_S12000x128_1_0_0_1_n_n.lhsIdx_val_of_single rfl i q
/-- The right operand index: row q … -/
theorem rhs_mm_0 (i : S12000x128.Idx) (q : dot_S12000x64_S64x128_S12000x128_1_0_0_1_n_n.contr.Idx) :
    (dot_S12000x64_S64x128_S12000x128_1_0_0_1_n_n.rhsIdx i q 0).val = (q ⟨0, by decide⟩).val :=
  dot_S12000x64_S64x128_S12000x128_1_0_0_1_n_n.rhsIdx_val_of_single rfl i q
/-- … and column i 1. -/
theorem rhs_mm_1 (i : S12000x128.Idx) (q : dot_S12000x64_S64x128_S12000x128_1_0_0_1_n_n.contr.Idx) :
    (dot_S12000x64_S64x128_S12000x128_1_0_0_1_n_n.rhsIdx i q 1).val = (i 1).val := by
  unfold DotDims.rhsIdx
  rw [dif_neg (show ¬(1 : Fin S64x128.rank) ∈ dot_S12000x64_S64x128_S12000x128_1_0_0_1_n_n.rhsBatch by decide), dif_pos (show (1 : Fin S64x128.rank) ∈ dot_S12000x64_S64x128_S12000x128_1_0_0_1_n_n.rhsNonContracting by decide)]
  rfl

/-- A [12000, 64] by [64, 128] product accumulated into zero reads, at (p, k), the sum over the 64 shared lanes of
    row p of the left operand against column k of the right one. -/
theorem mm_apply (l : FVec Ideal S12000x64 .bf16) (r : FVec Ideal S64x128 .bf16) (p : Fin 12000) (k : Fin 128) :
    matmul dot_S12000x64_S64x128_S12000x128_1_0_0_1_n_n none l r (constant (F := Ideal) S12000x128 .f32 0x00000000#32) (ix2 p k)
      = ∑ a : Fin 64, l (ix2 p a) * r (ix2 a k) := by
  simp only [matmul]
  rw [Ideal.matmul_constant_zero_apply, ← Equiv.sum_comp (contrEquiv1 dot_S12000x64_S64x128_S12000x128_1_0_0_1_n_n 64 rfl rfl).symm]
  refine Finset.sum_congr rfl fun a _ => ?_
  have hk := contrEquiv1_symm_val dot_S12000x64_S64x128_S12000x128_1_0_0_1_n_n 64 rfl rfl a
  have el : dot_S12000x64_S64x128_S12000x128_1_0_0_1_n_n.lhsIdx (ix2 p k) ((contrEquiv1 dot_S12000x64_S64x128_S12000x128_1_0_0_1_n_n 64 rfl rfl).symm a) = ix2 p a := funext fun ax => Fin.ext (by
    match ax with
    | ⟨0, _⟩ => exact lhs_mm_0 _ _
    | ⟨1, _⟩ => exact (lhs_mm_1 _ _).trans hk)
  have er : dot_S12000x64_S64x128_S12000x128_1_0_0_1_n_n.rhsIdx (ix2 p k) ((contrEquiv1 dot_S12000x64_S64x128_S12000x128_1_0_0_1_n_n 64 rfl rfl).symm a) = ix2 a k := funext fun ax => Fin.ext (by
    match ax with
    | ⟨0, _⟩ => exact (rhs_mm_0 _ _).trans hk
    | ⟨1, _⟩ => exact rhs_mm_1 _ _)
  rw [el, er]

/-- The three lane-by-lane functions that the pointwise vocabulary does not name, read at a position. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
theorem rsqrt_apply {s : Shape} {φ : FTy} (a : FVec Ideal s φ) (i : s.Idx) : rsqrt a i = Ideal.rsqrt (a i) := rfl

/-- A [1, 128] row laid over the 12000 rows of the block reads, at (p, k), the row's lane k. -/
theorem rowBcast_apply (v : FVec Ideal S1x128 .f32) (p : Fin 12000) (k : Fin 128) :
    broadcastTo S12000x128 v broadcasts_S1x128_S12000x128 (ix2 p k) = v (ix2 (0 : Fin 1) k) :=
  broadcastTo_1b_ab_apply v _ p k

/-- A [12000, 1] column laid over the 128 lanes reads, at (p, k), the column's entry of row p. -/
theorem colBcast_apply (v : FVec Ideal S12000x1 .f32) (p : Fin 12000) (k : Fin 128) :
    broadcastTo S12000x128 v broadcasts_S12000x1_S12000x128 (ix2 p k) = v (ix2 p (0 : Fin 1)) :=
  Keepdims.broadcastTo_a1_ab_apply v _ p k

/-- A vector of 12000 row values recast as a column reads, at (p, 0), the value of row p. -/
theorem colCast_apply (v : FVec Ideal S12000 .f32) (p : Fin 12000) (u : Fin 1) :
    shapeCast S12000x1 v shapeCasts_S12000_S12000x1 (ix2 p u) = v (ix1 p) :=
  Keepdims.shapeCast_a_a1_apply v _ p u

/-- The block's lanes 0 to 63, at (p, j): lane j of row p. -/
theorem loHalf_apply (v : FVec Ideal S12000x128 .f32) (p : Fin 12000) (j : Fin 64) :
    extractStridedSlice S12000x64 ![0, 0] v slices_S12000x128_o0_0_S12000x64 (ix2 p j)
      = v (ix2 p (⟨j.val, by omega⟩ : Fin 128)) :=
  slice2_axis1_apply 0 v _ p j _ (Nat.zero_add _).symm

/-- The block's lanes 64 to 127, at (p, j): lane 64 + j of row p. -/
theorem hiHalf_apply (v : FVec Ideal S12000x128 .f32) (p : Fin 12000) (j : Fin 64) :
    extractStridedSlice S12000x64 ![0, 64] v slices_S12000x128_o0_64_S12000x64 (ix2 p j)
      = v (ix2 p (⟨64 + j.val, by omega⟩ : Fin 128)) :=
  slice2_axis1_apply 64 v _ p j _ rfl

/-! ## The stored value at a position -/

set_option maxHeartbeats 1000000 in
/-- The normalised, scaled row (everything before the shift) at (p, k), from the block's first six inputs. -/
theorem scaled_apply (x0 x1 : Vec Ideal S12000x64 .f32) (x2 x3 : Vec Ideal S64x128 .f32) (x4 x5 : Vec Ideal S1x128 .f32)
    (p : Fin 12000) (k : Fin 128) :
    k0_pay2 (F := Ideal) x0 x1 x2 x3 x4 x5 (ix2 p k)
      = (Cert.Spec.linRow (fun a => x0 (ix2 p a)) (fun a => x1 (ix2 p a)) (fun a k => x2 (ix2 a k)) (fun a k => x3 (ix2 a k))
            (fun k => x4 (ix2 (0 : Fin 1) k)) k
          - Cert.Spec.rowMean Cert.Spec.w128 (Cert.Spec.linRow (fun a => x0 (ix2 p a)) (fun a => x1 (ix2 p a)) (fun a k => x2 (ix2 a k))
              (fun a k => x3 (ix2 a k)) (fun k => x4 (ix2 (0 : Fin 1) k))))
        * Ideal.rsqrt (Cert.Spec.rowVar Cert.Spec.w128 (Cert.Spec.linRow (fun a => x0 (ix2 p a)) (fun a => x1 (ix2 p a))
              (fun a k => x2 (ix2 a k)) (fun a k => x3 (ix2 a k)) (fun k => x4 (ix2 (0 : Fin 1) k))) + Cert.Spec.wEps)
        * x5 (ix2 (0 : Fin 1) k) := by
  unfold k0_pay2
  simp only [mulf_apply, addf_apply, subf_apply, divf_apply, truncf_apply, broadcast_apply, rsqrt_apply, shapeCast_self,
    rowBcast_apply, colBcast_apply, colCast_apply, mm_apply]
  rw [laneSum_apply, laneSum_apply]
  simp only [mulf_apply, addf_apply, subf_apply, divf_apply, truncf_apply, broadcast_apply, rsqrt_apply, shapeCast_self,
    rowBcast_apply, colBcast_apply, colCast_apply, mm_apply]
  rw [laneSum_apply]
  simp only [mulf_apply, addf_apply, subf_apply, divf_apply, truncf_apply, broadcast_apply, rsqrt_apply, shapeCast_self,
    rowBcast_apply, colBcast_apply, colCast_apply, mm_apply]
  unfold Cert.Spec.rowVar Cert.Spec.rowMean Cert.Spec.linRow
  rfl

/-- THE STORED VALUE at row p, lane j of the block: the message row of the specification, formed from row p of the two
    [12000, 64] inputs, the two weight halves, and the bias, scale and shift rows. -/
theorem msgBlock_apply (x0 x1 : Vec Ideal S12000x64 .f32) (x2 x3 : Vec Ideal S64x128 .f32) (x4 x5 x6 : Vec Ideal S1x128 .f32)
    (p : Fin 12000) (j : Fin 64) :
    k0_pay1 (k0_pay2 (F := Ideal) x0 x1 x2 x3 x4 x5) x6 (ix2 p j)
      = Cert.Spec.msgRow
          (Cert.Spec.linRow (fun a => x0 (ix2 p a)) (fun a => x1 (ix2 p a)) (fun a k => x2 (ix2 a k)) (fun a k => x3 (ix2 a k))
            (fun k => x4 (ix2 (0 : Fin 1) k)))
          (fun k => x5 (ix2 (0 : Fin 1) k)) (fun k => x6 (ix2 (0 : Fin 1) k)) j := by
  unfold k0_pay1
  simp only [mulf_apply, addf_apply, logistic_apply, tanh_apply, shapeCast_self, rowBcast_apply, loHalf_apply, hiHalf_apply,
    scaled_apply]
  unfold Cert.Spec.msgRow Cert.Spec.lnRow
  rfl

/-! ## From the blocks to the array -/

/-- The zero offsets of a whole-buffer access, however spelt. -/
theorem zeroOff : (![0, 0] : Fin 2 → Nat) = fun _ => 0 := funext fun a => by fin_cases a <;> rfl

/-- The block indices at grid point t, decided over the 100 points: the output and the two row-blocked inputs sit at
    block (t, 0); the five small inputs always at block (0, 0). -/
theorem blockIdx : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- One block's stored value against the specification: when the two row-blocked inputs hold rows 12000·T + p of the
    arrays g and e, and the five small inputs hold their arrays, the value stored at (p, j) is the message array at
    row 12000·T + p, lane j. -/
theorem block_value (g e : Cert.Spec.SE64.Idx → EReal) (wn we : Cert.Spec.SW.Idx → EReal) (b g1 be1 : Cert.Spec.SR128.Idx → EReal)
    (x0 x1 : Vec Ideal S12000x64 .f32) (x2 x3 : Vec Ideal S64x128 .f32) (x4 x5 x6 : Vec Ideal S1x128 .f32) (T : Nat)
    (h0 : ∀ (p : Fin 12000) (a : Fin 64) (r : Fin 1200000), r.val = T * 12000 + p.val → x0 (ix2 p a) = g (ix2 r a))
    (h1 : ∀ (p : Fin 12000) (a : Fin 64) (r : Fin 1200000), r.val = T * 12000 + p.val → x1 (ix2 p a) = e (ix2 r a))
    (h2 : ∀ (a : Fin 64) (k : Fin 128), x2 (ix2 a k) = wn (ix2 a k))
    (h3 : ∀ (a : Fin 64) (k : Fin 128), x3 (ix2 a k) = we (ix2 a k))
    (h4 : ∀ k : Fin 128, x4 (ix2 (0 : Fin 1) k) = b (ix2 (0 : Fin 1) k))
    (h5 : ∀ k : Fin 128, x5 (ix2 (0 : Fin 1) k) = g1 (ix2 (0 : Fin 1) k))
    (h6 : ∀ k : Fin 128, x6 (ix2 (0 : Fin 1) k) = be1 (ix2 (0 : Fin 1) k))
    (y : S12000x64.Idx) (i : Cert.Spec.SE64.Idx) (hi0 : (i 0).val = T * 12000 + (y 0).val) (hi1 : (i 1).val = (y 1).val) :
    k0_pay1 (k0_pay2 (F := Ideal) x0 x1 x2 x3 x4 x5) x6 y = Cert.Spec.MsgG g e wn we b g1 be1 i := by
  obtain ⟨p, j, rfl⟩ : ∃ (p : Fin 12000) (j : Fin 64), y = ix2 p j := ⟨y 0, y 1, eq_ix2 y⟩
  obtain ⟨r, j', rfl⟩ : ∃ (r : Fin 1200000) (j' : Fin 64), i = ix2 r j' := ⟨i 0, i 1, eq_ix2 i⟩
  obtain rfl : j' = j := Fin.ext hi1
  rw [msgBlock_apply]
  show _ = Cert.Spec.msgRow
      (Cert.Spec.linRow (fun a => g (ix2 r a)) (fun a => e (ix2 r a)) (fun a k => wn (ix2 a k)) (fun a k => we (ix2 a k))
        (fun k => b (ix2 (0 : Fin 1) k)))
      (fun k => g1 (ix2 (0 : Fin 1) k)) (fun k => be1 (ix2 (0 : Fin 1) k)) j'
  have e0 : (fun a => x0 (ix2 p a)) = fun a => g (ix2 r a) := funext fun a => h0 p a r hi0
  have e1 : (fun a => x1 (ix2 p a)) = fun a => e (ix2 r a) := funext fun a => h1 p a r hi0
  have e2 : (fun a k => x2 (ix2 a k)) = fun a k => wn (ix2 a k) := funext fun a => funext fun k => h2 a k
  have e3 : (fun a k => x3 (ix2 a k)) = fun a k => we (ix2 a k) := funext fun a => funext fun k => h3 a k
  have e4 : (fun k => x4 (ix2 (0 : Fin 1) k)) = fun k => b (ix2 (0 : Fin 1) k) := funext h4
  have e5 : (fun k => x5 (ix2 (0 : Fin 1) k)) = fun k => g1 (ix2 (0 : Fin 1) k) := funext h5
  have e6 : (fun k => x6 (ix2 (0 : Fin 1) k)) = fun k => be1 (ix2 (0 : Fin 1) k) := funext h6
  rw [e0, e1, e2, e3, e4, e5, e6]

/-- WHAT POINT t WRITES BACK is block t of the message array of the seven arrays the region finds on entry. -/
theorem flushed_eq (V : (c : Dev nD) → (b : Ref sig .tc) → Buf (Elt Ideal) ((c : Thread nD τ).loc b)) (c : Dev nD) (t : Fin cfg0.N) :
    (dat0 (F := Ideal) V c).flushed 7 t
      = ((cfg0.win 7).blk t).view.read (Elt Ideal)
          (Cert.Spec.MsgG (V c main_v6) (V c main_arg1) (V c main_v8) (V c main_v9) (V c main_v10) (V c main_v11) (V c main_v12)) := by
  show (cfg0.win 7).cut (grid0.coords t) ((dat0 V c).after 7 t) = _
  rw [after0_7]
  unfold out0_7
  rw [View.canon_unit_zero zeroOff]
  simp only [View.ld_unit_zero (S := S12000x64) zeroOff, View.ld_unit_zero (S := S64x128) zeroOff, View.ld_unit_zero (S := S1x128) zeroOff]
  obtain ⟨f70, f71, f00, f01, f10, f11, f20, f21, f30, f31, f40, f41, f50, f51, f60, f61⟩ := blockIdx t
  funext y
  refine block_value (V c main_v6) (V c main_arg1) (V c main_v8) (V c main_v9) (V c main_v10) (V c main_v11) (V c main_v12)
    (iblk0 V c 0 t) (iblk0 V c 1 t) (iblk0 V c 2 t) (iblk0 V c 3 t) (iblk0 V c 4 t) (iblk0 V c 5 t) (iblk0 V c 6 t) t.val
    ?_ ?_ ?_ ?_ ?_ ?_ ?_ ((cfg0.win 7).xinj (grid0.coords t) y) (((cfg0.win 7).blk t).view.emb y) ?_ ?_
  · intro p a r hr
    show V c main_v6 (((cfg0.win 0).blk t).view.emb (ix2 p a)) = V c main_v6 (ix2 r a)
    refine congrArg _ (funext fun ax => Fin.ext ?_)
    match ax with
    | ⟨0, _⟩ => show win0_0.index t (0 : Fin 2) * 12000 + 1 * p.val = r.val; omega
    | ⟨1, _⟩ => show win0_0.index t (1 : Fin 2) * 64 + 1 * a.val = a.val; omega
  · intro p a r hr
    show V c main_arg1 (((cfg0.win 1).blk t).view.emb (ix2 p a)) = V c main_arg1 (ix2 r a)
    refine congrArg _ (funext fun ax => Fin.ext ?_)
    match ax with
    | ⟨0, _⟩ => show win0_1.index t (0 : Fin 2) * 12000 + 1 * p.val = r.val; omega
    | ⟨1, _⟩ => show win0_1.index t (1 : Fin 2) * 64 + 1 * a.val = a.val; omega
  · intro a k
    show V c main_v8 (((cfg0.win 2).blk t).view.emb (ix2 a k)) = V c main_v8 (ix2 a k)
    refine congrArg _ (funext fun ax => Fin.ext ?_)
    match ax with
    | ⟨0, _⟩ => show win0_2.index t (0 : Fin 2) * 64 + 1 * a.val = a.val; omega
    | ⟨1, _⟩ => show win0_2.index t (1 : Fin 2) * 128 + 1 * k.val = k.val; omega
  · intro a k
    show V c main_v9 (((cfg0.win 3).blk t).view.emb (ix2 a k)) = V c main_v9 (ix2 a k)
    refine congrArg _ (funext fun ax => Fin.ext ?_)
    match ax with
    | ⟨0, _⟩ => show win0_3.index t (0 : Fin 2) * 64 + 1 * a.val = a.val; omega
    | ⟨1, _⟩ => show win0_3.index t (1 : Fin 2) * 128 + 1 * k.val = k.val; omega
  · intro k
    show V c main_v10 (((cfg0.win 4).blk t).view.emb (ix2 (0 : Fin 1) k)) = V c main_v10 (ix2 (0 : Fin 1) k)
    refine congrArg _ (funext fun ax => Fin.ext ?_)
    match ax with
    | ⟨0, _⟩ => show win0_4.index t (0 : Fin 2) * 1 + 1 * 0 = 0; omega
    | ⟨1, _⟩ => show win0_4.index t (1 : Fin 2) * 128 + 1 * k.val = k.val; omega
  · intro k
    show V c main_v11 (((cfg0.win 5).blk t).view.emb (ix2 (0 : Fin 1) k)) = V c main_v11 (ix2 (0 : Fin 1) k)
    refine congrArg _ (funext fun ax => Fin.ext ?_)
    match ax with
    | ⟨0, _⟩ => show win0_5.index t (0 : Fin 2) * 1 + 1 * 0 = 0; omega
    | ⟨1, _⟩ => show win0_5.index t (1 : Fin 2) * 128 + 1 * k.val = k.val; omega
  · intro k
    show V c main_v12 (((cfg0.win 6).blk t).view.emb (ix2 (0 : Fin 1) k)) = V c main_v12 (ix2 (0 : Fin 1) k)
    refine congrArg _ (funext fun ax => Fin.ext ?_)
    match ax with
    | ⟨0, _⟩ => show win0_6.index t (0 : Fin 2) * 1 + 1 * 0 = 0; omega
    | ⟨1, _⟩ => show win0_6.index t (1 : Fin 2) * 128 + 1 * k.val = k.val; omega
  · show win0_7.index t (0 : Fin 2) * 12000 + 1 * (y 0).val = t.val * 12000 + (y 0).val
    omega
  · show win0_7.index t (1 : Fin 2) * 64 + 1 * (y 1).val = (y 1).val
    omega

/-- An index of the message array is in point t's block iff each coordinate is in the block's range on its axis. -/
theorem mem_blk (t : Fin cfg0.N) (i : S1200000x64.Idx) :
    i ∈ ((cfg0.win 7).blk t).view.set ↔ ∀ a : Fin 2, win0_7.index t a * S12000x64.size a ≤ (i a).val ∧ (i a).val < win0_7.index t a * S12000x64.size a + S12000x64.size a := by
  show i ∈ ((View.whole main_v13).slice (win0_7.rect t)).set ↔ _
  rw [View.set_slice_whole, Rect.mem_set_unit]
  exact Iff.rfl

/-- Every row is written: row r lies in the block of point r / 12000, and every point writes its block back. -/
theorem cover (i : S1200000x64.Idx) : ∃ t : Fin cfg0.N, (cfg0.win 7).flush t = true ∧ i ∈ ((cfg0.win 7).blk t).view.set := by
  have hi0 : (i 0).val < 1200000 := (i 0).isLt
  have hi1 : (i 1).val < 64 := (i 1).isLt
  have hlt : (i 0).val / 12000 < cfg0.N := by rw [show cfg0.N = 100 from N_0]; omega
  obtain ⟨f70, f71, -⟩ := blockIdx ⟨(i 0).val / 12000, hlt⟩
  refine ⟨⟨(i 0).val / 12000, hlt⟩, flush0_7 _, ?_⟩
  rw [mem_blk]
  intro a
  match a with
  | ⟨0, _⟩ =>
    show win0_7.index ⟨(i 0).val / 12000, hlt⟩ (0 : Fin 2) * 12000 ≤ (i 0).val ∧ (i 0).val < win0_7.index ⟨(i 0).val / 12000, hlt⟩ (0 : Fin 2) * 12000 + 12000
    rw [f70]
    show (i 0).val / 12000 * 12000 ≤ (i 0).val ∧ (i 0).val < (i 0).val / 12000 * 12000 + 12000
    omega
  | ⟨1, _⟩ =>
    show win0_7.index ⟨(i 0).val / 12000, hlt⟩ (1 : Fin 2) * 64 ≤ (i 1).val ∧ (i 1).val < win0_7.index ⟨(i 0).val / 12000, hlt⟩ (1 : Fin 2) * 64 + 64
    rw [f71]
    omega

/-- THE MESSAGE ARRAY after the region: the specification's message array of the seven arrays the region finds on entry. -/
theorem msg_final (V : (c : Dev nD) → (b : Ref sig .tc) → Buf (Elt Ideal) ((c : Thread nD τ).loc b)) (c : Dev nD) :
    (dat0 (F := Ideal) V c).arrAt 7 cfg0.N
      = Cert.Spec.MsgG (V c main_v6) (V c main_arg1) (V c main_v8) (V c main_v9) (V c main_v10) (V c main_v11) (V c main_v12) :=
  (dat0 (F := Ideal) V c).arrAt_eq_of_cover 7
    (Cert.Spec.MsgG (V c main_v6) (V c main_arg1) (V c main_v8) (V c main_v9) (V c main_v10) (V c main_v11) (V c main_v12))
    (fun t _ => flushed_eq V c t) cover

end Cert.KernelIdeal.MsgRegion

end
-- ==== Proof.NodeRegion.lean ====
/-
  The node region's value. Each of the ten grid points takes a block of 10000 node rows and the same 10000 rows of the
  aggregated messages, with the scale and shift rows, and stores tanh(node + layer_norm(aggregate)) over the 64 lanes.
  Here: the stored block read at an index (p, j) is the row-wise specification `Cert.Spec.nodeRow`; what a point writes
  back is its block of the whole-array function `Cert.Spec.NodeG` of the four arrays as the region finds them; the ten
  blocks cover the [100000, 64] result, so after the region the result array IS `NodeG`.
-/
import proofs.«128651_j36069135352226_1_alg».proof.Proof.Gen.KernelIdeal.Frame
import proofs.«128651_j36069135352226_1_alg».proof.Proof.Spec
import proofs.«128651_j36069135352226_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeRegion

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.Keepdims

/-! ## The stored block at an index -/

/-- The sum over the 64 lanes of a [10000, 64] block, read at row p: the sum of the row's 64 entries. The index the
    reduction inserts, (p, a), has the coordinates of `ix2 p a`. -/
theorem laneSum_apply (x : FVec Ideal S10000x64 .f32) (h : S10000x64.Reduces [1] S10000) (hφ : FKind.Formats .f32)
    (hacc : (0x00000000#32 : BitVec 32) = 0x00000000#32) (p : Fin 10000) :
    multiReduction .add [1] S10000 x 0x00000000#32 h hφ hacc (ix1 p) = ∑ a : Fin 64, x (ix2 p a) := by
  refine (Ideal.multiReduction_add_single x 0x00000000#32 h hφ hacc (ix1 p)).trans ?_
  refine Finset.sum_congr rfl fun a _ => congrArg x ?_
  funext d
  match d with
  | ⟨0, _⟩ => rfl
  | ⟨1, _⟩ => rfl

/-- The same sum for a block given as a buffer's contents (over the extended reals the two types are one). -/
theorem laneSum_loaded_apply (x : Vec Ideal S10000x64 .f32) (h : S10000x64.Reduces [1] S10000) (hφ : FKind.Formats .f32)
    (hacc : (0x00000000#32 : BitVec 32) = 0x00000000#32) (p : Fin 10000) :
    multiReduction (F := Ideal) (φ := .f32) .add [1] S10000 x 0x00000000#32 h hφ hacc (ix1 p) = ∑ a : Fin 64, x (ix2 p a) :=
  laneSum_apply x h hφ hacc p

/-- tanh and the reciprocal square root act entry by entry. -/
theorem tanh_apply {s : Shape} (v : FVec Ideal s .f32) (i : s.Idx) : tanh v i = Ideal.tanh (v i) := rfl
theorem rsqrt_apply {s : Shape} (v : FVec Ideal s .f32) (i : s.Idx) : rsqrt v i = Ideal.rsqrt (v i) := rfl

/-- THE STORED BLOCK AT (p, j), from the node block x0, the aggregate block x1, the scale row x2 and the shift row x3:
    tanh of the node entry plus the layer-normalised row p of the aggregate at lane j. Every entrywise operation is
    pushed to the index; the mean column [10000, 1] and the reciprocal-root column are read at (p, 0), which is row p
    of the lane sums; the scale and shift rows are read at (0, j). What is left is `nodeRow` unfolded: the row's mean,
    the mean of the squared deviations, the offset, the reciprocal root, scale, shift, the node entry, tanh. -/
theorem stored_apply (x0 x1 : Vec Ideal S10000x64 .f32) (x2 x3 : Vec Ideal S1x64 .f32) (p : Fin 10000) (j : Fin 64) :
    k1_pay1 (F := Ideal) x1 x2 x3 x0 (ix2 p j)
      = Cert.Spec.nodeRow (x0 (ix2 p j)) (fun a => x1 (ix2 p a)) (fun a => x2 (ix2 (0 : Fin 1) a))
          (fun a => x3 (ix2 (0 : Fin 1) a)) j := by
  unfold k1_pay1
  simp only [tanh_apply, rsqrt_apply, addf_apply, mulf_apply, subf_apply, divf_apply, broadcast_apply, shapeCast_self,
    broadcastTo_1b_ab_apply, broadcastTo_a1_ab_apply, shapeCast_a_a1_apply, Ideal.ofBits_def]
  -- the two lane sums at row p: of the aggregate row, and of its squared deviations from the mean
  rw [laneSum_loaded_apply x1 _ _ _ p, laneSum_apply _ _ _ _ p]
  -- inside the second sum the deviation at (p, a) reads the mean column at (p, 0) again
  simp only [addf_apply, mulf_apply, subf_apply, divf_apply, broadcast_apply,
    broadcastTo_a1_ab_apply, shapeCast_a_a1_apply]
  rw [laneSum_loaded_apply x1 _ _ _ p]
  rfl

/-- ONE POINT OF ONE BLOCK. When the node block and the aggregate block are the two arrays A0, A1 read at the rows
    r p, and the scale and shift rows are the arrays A2, A3 at row 0, the stored block at y is the whole-array
    function at (r (y 0), y 1): `NodeG` at a row reads the node entry there, that row of the aggregate, and row 0 of
    scale and shift. -/
theorem block_point (A0 A1 : S100000x64.Idx → EReal) (A2 A3 : S1x64.Idx → EReal)
    (x0 x1 : Vec Ideal S10000x64 .f32) (x2 x3 : Vec Ideal S1x64 .f32) (r : Fin 10000 → Fin 100000)
    (h0 : ∀ p j, x0 (ix2 p j) = A0 (ix2 (r p) j)) (h1 : ∀ p j, x1 (ix2 p j) = A1 (ix2 (r p) j))
    (h2 : ∀ a, x2 (ix2 (0 : Fin 1) a) = A2 (ix2 (0 : Fin 1) a))
    (h3 : ∀ a, x3 (ix2 (0 : Fin 1) a) = A3 (ix2 (0 : Fin 1) a))
    (y : S10000x64.Idx) (i : S100000x64.Idx) (hi : i = ix2 (r (y 0)) (y 1)) :
    k1_pay1 (F := Ideal) x1 x2 x3 x0 y = Cert.Spec.NodeG A0 A1 A2 A3 i := by
  subst hi
  obtain ⟨p, j, rfl⟩ : ∃ (p : Fin 10000) (j : Fin 64), y = ix2 p j := ⟨y 0, y 1, eq_ix2 y⟩
  rw [stored_apply]
  unfold Cert.Spec.NodeG
  simp only [h0, h1, h2, h3]
  rfl

/-! ## From the ten blocks to the array -/

/-- The zero offsets of a whole-buffer access, however spelt. -/
theorem zero_offsets : (![0, 0] : Fin 2 → Nat) = fun _ => 0 := funext fun a => by fin_cases a <;> rfl

/-- The printed index maps over the ten grid points: the node rows, the aggregate and the result sit at block (t, 0);
    scale and shift at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section

variable (V : (c : Dev nD) → (b : Ref sig .tc) → Buf (Elt Ideal) ((c : Thread nD τ).loc b))

/-- WHAT POINT t WRITES BACK is block t of `NodeG` of the four arrays as the region finds them. The body's one store
    covers the staging buffer, so the buffer holds the stored block of the four input blocks; an index y of block t
    is row 10000 t + y 0, lane y 1 of the array (a block's coordinate is index × size + the coordinate inside), and
    the node and aggregate blocks are their arrays at those same rows, the scale and shift blocks their arrays whole. -/
theorem point_writes_block (c : Dev nD) (t : Fin cfg1.N) :
    (dat1 (F := Ideal) V c).flushed 4 t = ((cfg1.win 4).blk t).view.read (Elt Ideal)
      (Cert.Spec.NodeG (V c main_arg0) (V c main_v16) (V c main_v17) (V c main_v18)) := by
  show (cfg1.win 4).cut (grid1.coords t) ((dat1 V c).after 4 t) = _
  rw [after1_4]
  unfold out1_4
  rw [View.canon_unit_zero zero_offsets]
  simp only [View.ld_unit_zero (S := S10000x64) zero_offsets, View.ld_unit_zero (S := S1x64) zero_offsets]
  funext y
  have ht : t.val < 10 := by have h := t.isLt; have hN : cfg1.N = 10 := N_1; omega
  obtain ⟨e0, e1, e2, e3, e4, e5, e6, e7, e8, e9⟩ := block_indices t
  show k1_pay1 (F := Ideal) (iblk1 V c 1 t) (iblk1 V c 2 t) (iblk1 V c 3 t) (iblk1 V c 0 t) y
    = Cert.Spec.NodeG (V c main_arg0) (V c main_v16) (V c main_v17) (V c main_v18) (((cfg1.win 4).blk t).view.emb y)
  refine block_point (V c main_arg0) (V c main_v16) (V c main_v17) (V c main_v18)
    (iblk1 V c 0 t) (iblk1 V c 1 t) (iblk1 V c 2 t) (iblk1 V c 3 t)
    (fun p => ⟨t.val * 10000 + p.val, by have := p.isLt; omega⟩) ?_ ?_ ?_ ?_ y _ ?_
  · -- the node block at (p, j) is the node array at row 10000 t + p
    intro p j
    show V c main_arg0 (((cfg1.win 0).blk t).view.emb (ix2 p j)) = V c main_arg0 _
    refine congrArg (V c main_arg0) (funext fun a => Fin.ext ?_)
    match a with
    | ⟨0, _⟩ => show win1_0.index t (0 : Fin 2) * 10000 + 1 * p.val = t.val * 10000 + p.val; rw [e0]; omega
    | ⟨1, _⟩ => show win1_0.index t (1 : Fin 2) * 64 + 1 * j.val = j.val; rw [e1]; omega
  · -- the aggregate block likewise
    intro p j
    show V c main_v16 (((cfg1.win 1).blk t).view.emb (ix2 p j)) = V c main_v16 _
    refine congrArg (V c main_v16) (funext fun a => Fin.ext ?_)
    match a with
    | ⟨0, _⟩ => show win1_1.index t (0 : Fin 2) * 10000 + 1 * p.val = t.val * 10000 + p.val; rw [e2]; omega
    | ⟨1, _⟩ => show win1_1.index t (1 : Fin 2) * 64 + 1 * j.val = j.val; rw [e3]; omega
  · -- the scale block is the scale row
    intro a
    show V c main_v17 (((cfg1.win 2).blk t).view.emb (ix2 (0 : Fin 1) a)) = V c main_v17 _
    refine congrArg (V c main_v17) (funext fun d => Fin.ext ?_)
    match d with
    | ⟨0, _⟩ => show win1_2.index t (0 : Fin 2) * 1 + 1 * 0 = 0; rw [e4]
    | ⟨1, _⟩ => show win1_2.index t (1 : Fin 2) * 64 + 1 * a.val = a.val; rw [e5]; omega
  · -- the shift block is the shift row
    intro a
    show V c main_v18 (((cfg1.win 3).blk t).view.emb (ix2 (0 : Fin 1) a)) = V c main_v18 _
    refine congrArg (V c main_v18) (funext fun d => Fin.ext ?_)
    match d with
    | ⟨0, _⟩ => show win1_3.index t (0 : Fin 2) * 1 + 1 * 0 = 0; rw [e6]
    | ⟨1, _⟩ => show win1_3.index t (1 : Fin 2) * 64 + 1 * a.val = a.val; rw [e7]; omega
  · -- where the result block's index y lies in the array
    funext a
    apply Fin.ext
    match a with
    | ⟨0, _⟩ => show win1_4.index t (0 : Fin 2) * 10000 + 1 * (y 0).val = t.val * 10000 + (y 0).val; rw [e8]; omega
    | ⟨1, _⟩ => show win1_4.index t (1 : Fin 2) * 64 + 1 * (y 1).val = (y 1).val; rw [e9]; omega

/-- THE RESULT ARRAY after the region is `NodeG` of the node rows, the aggregated messages, scale and shift as the
    region finds them: every point writes back its block of `NodeG`, and row r of the array lies in the block of point
    r / 10000 (rows 10000 (r / 10000) up to 10000 (r / 10000) + 9999, all 64 lanes), so the ten blocks cover it. -/
theorem node_final (c : Dev nD) :
    (dat1 (F := Ideal) V c).arrAt 4 cfg1.N
      = Cert.Spec.NodeG (V c main_arg0) (V c main_v16) (V c main_v17) (V c main_v18) :=
  (dat1 (F := Ideal) V c).arrAt_eq_of_cover 4
    (Cert.Spec.NodeG (V c main_arg0) (V c main_v16) (V c main_v17) (V c main_v18))
    (fun t _ => point_writes_block V c t) fun i => by
      have hi0 : (i 0 : Nat) < 100000 := (i 0).isLt
      have hi1 : (i 1 : Nat) < 64 := (i 1).isLt
      obtain ⟨t, htv⟩ : ∃ t : Fin cfg1.N, t.val = (i 0 : Nat) / 10000 :=
        ⟨⟨(i 0 : Nat) / 10000, by rw [show cfg1.N = 10 from N_1]; omega⟩, rfl⟩
      obtain ⟨-, -, -, -, -, -, -, -, e8, e9⟩ := block_indices t
      refine ⟨t, flush1_4 t, ?_⟩
      show i ∈ ((View.whole main_v19).slice (win1_4.rect t)).set
      rw [View.set_slice_whole, Rect.mem_set_unit]
      intro a
      match a with
      | ⟨0, _⟩ =>
        show win1_4.index t (0 : Fin 2) * 10000 ≤ (i 0 : Nat) ∧ (i 0 : Nat) < win1_4.index t (0 : Fin 2) * 10000 + 10000
        rw [e8, htv]; omega
      | ⟨1, _⟩ =>
        show win1_4.index t (1 : Fin 2) * 64 ≤ (i 1 : Nat) ∧ (i 1 : Nat) < win1_4.index t (1 : Fin 2) * 64 + 64
        rw [e9]; omega

end

end Cert.KernelIdeal.NodeRegion

end
-- ==== Proof.lean ====
/-
  A two-layer message-passing step over a graph of 100000 nodes and 1200000 edges, 64 features each. For every edge the row
  of its target node is gathered and, with the edge's own row, sent through a linear map to 128 lanes, layer-normalised,
  and gated: lane j of the message is sigmoid(lane j) · tanh(lane 64 + j). The messages are summed per node, the sums
  layer-normalised over their 64 lanes, added to the node's row, and passed through tanh.

  The kernel computes the two dense layers blockwise on the device (12000 edge rows, then 10000 node rows, at a time) and
  leaves the gather and the sum per node to the host; its linear map is two products over the two halves of the
  transposed weight matrix. The reference forms the joined 128-lane row and multiplies once. Over the extended reals the
  two are one function: the sum of 128 products is the sum of its first 64 and its last 64, and everything else is the
  same operation on the same operands, literal for literal. No step distributes a product over a sum or cancels, so the
  finiteness of the inputs is never used.

  The pieces: Spec (the mathematics, row by row), MsgRegion and NodeRegion (what each device region leaves in its output
  array), KernelHost (the kernel program's result through its host stretches), Bridge (the two arrangements agree),
  RefValue (the reference read stage by stage), CrossProgram (the shared gather and scatter-add), Claims (the five claims).
-/
import proofs.«128651_j36069135352226_1_alg».proof.Defs
import proofs.«128651_j36069135352226_1_alg».proof.Proof.Gen.Kernel
import proofs.«128651_j36069135352226_1_alg».proof.Proof.Gen.KernelIdeal
import proofs.«128651_j36069135352226_1_alg».proof.Proof.Gen.ReferenceIdeal
import proofs.«128651_j36069135352226_1_alg».proof.Proof.Gen.Pre_finite_inputs
import proofs.«128651_j36069135352226_1_alg».proof.Proof.Claims
import proofs.«128651_j36069135352226_1_alg».proof.Proof.MsgRegion
import proofs.«128651_j36069135352226_1_alg».proof.Proof.NodeRegion
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic Cert.KernelIdeal.MsgRegion.msg_final Cert.KernelIdeal.NodeRegion.node_final⟩

end Cert.Proof

end
